-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "neg_big" .f32 0xF149F2CA#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S50257x1024 : Shape := ⟨2, ![50257, 1024]⟩
abbrev S50257 : Shape := ⟨1, ![50257]⟩
abbrev S2x2048 : Shape := ⟨2, ![2, 2048]⟩
abbrev S_ : Shape := ⟨0, ![]⟩
abbrev S2x2047 : Shape := ⟨2, ![2, 2047]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S50257x1024 : S_.BroadcastsInDim S50257x1024 (![] : Fin 0 → Fin S50257x1024.rank)
  reducesTo_S50257x1024_S_d0_1 : S50257x1024.ReducesTo [0, 1] S_
  bcast_S_S50257 : S_.BroadcastsInDim S50257 (![] : Fin 0 → Fin S50257.rank)
  reducesTo_S50257_S_d0 : S50257.ReducesTo [0] S_
  slices_S2x2048_S2x2047_0_1 : S2x2048.Slices ![0, 1] S2x2047
  bcast_S_S2x2047 : S_.BroadcastsInDim S2x2047 (![] : Fin 0 → Fin S2x2047.rank)
  reducesTo_S2x2047_S_d0_1 : S2x2047.ReducesTo [0, 1] S_

variable [Facts]

def fn_part1 {F : FTy → Type} [FloatOps F] (main_arg3 : IVec S2x2048 32) (main_v13 : IVec S_ 1) (main_v16 : IVec S2x2047 1) : IVec S_ 1 :=
  let main_v17 : IVec S2x2047 32 := (extractStridedSlice S2x2047 ![0, 1] · slices_S2x2048_S2x2047_0_1) main_arg3
  let main_c_5 : IVec S_ 32 := constantI S_ 32 50257#32
  let main_v18 : IVec S2x2047 32 := broadcastInDim S2x2047 ![] bcast_S_S2x2047 main_c_5
  let main_v19 : IVec S2x2047 1 := cmpi .slt main_v17 main_v18
  let main_v20 : IVec S2x2047 1 := andi main_v16 main_v19
  let main_c_6 : IVec S_ 1 := constantI S_ 1 1#1
  let main_v21 : IVec S_ 1 := (fun x v => Host.reduce IntOp.andi x v reducesTo_S2x2047_S_d0_1 h_S_) main_v20 main_c_6
  let main_v22 : IVec S_ 1 := andi main_v13 main_v21
  main_v22

def fn {F : FTy → Type} [FloatOps F] (main_arg0 : FVec F S2x2048x1024 .f32) (main_arg1 : FVec F S50257x1024 .f32) (main_arg2 : FVec F S50257 .f32) (main_arg3 : IVec S2x2048 32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S50257x1024 .f32 := Host.absf main_arg1
  let main_cst_0 : FVec F S_ .f32 := constant S_ .f32 0x7F800000#32
  let main_v5 : FVec F S50257x1024 .f32 := broadcastInDim S50257x1024 ![] bcast_S_S50257x1024 main_cst_0
  let main_v6 : IVec S50257x1024 1 := cmpf .olt main_v4 main_v5
  let main_c_1 : IVec S_ 1 := constantI S_ 1 1#1
  let main_v7 : IVec S_ 1 := (fun x v => Host.reduce IntOp.andi x v reducesTo_S50257x1024_S_d0_1 h_S_) main_v6 main_c_1
  let main_v8 : IVec S_ 1 := andi main_v3 main_v7
  let main_v9 : FVec F S50257 .f32 := Host.absf main_arg2
  let main_cst_2 : FVec F S_ .f32 := constant S_ .f32 0x7F800000#32
  let main_v10 : FVec F S50257 .f32 := broadcastInDim S50257 ![] bcast_S_S50257 main_cst_2
  let main_v11 : IVec S50257 1 := cmpf .olt main_v9 main_v10
  let main_c_3 : IVec S_ 1 := constantI S_ 1 1#1
  let main_v12 : IVec S_ 1 := (fun x v => Host.reduce IntOp.andi x v reducesTo_S50257_S_d0 h_S_) main_v11 main_c_3
  let main_v13 : IVec S_ 1 := andi main_v8 main_v12
  let main_v14 : IVec S2x2047 32 := (extractStridedSlice S2x2047 ![0, 1] · slices_S2x2048_S2x2047_0_1) main_arg3
  let main_c_4 : IVec S_ 32 := constantI S_ 32 0#32
  let main_v15 : IVec S2x2047 32 := broadcastInDim S2x2047 ![] bcast_S_S2x2047 main_c_4
  let main_v16 : IVec S2x2047 1 := cmpi .sge main_v14 main_v15
  fn_part1 (F := F) main_arg3 main_v13 main_v16
-- ==== Kernel.lean ====
abbrev S2x2048x1024 : Shape := ⟨3, ![2, 2048, 1024]⟩
abbrev S50257x1024 : Shape := ⟨2, ![50257, 1024]⟩
abbrev S50257 : Shape := ⟨1, ![50257]⟩
abbrev S2x2048 : Shape := ⟨2, ![2, 2048]⟩
abbrev S2x2047x1024 : Shape := ⟨3, ![2, 2047, 1024]⟩
abbrev S2x2047 : Shape := ⟨2, ![2, 2047]⟩
abbrev S_ : Shape := ⟨0, ![]⟩
abbrev S2x2047x1 : Shape := ⟨3, ![2, 2047, 1]⟩
abbrev S50688x1024 : Shape := ⟨2, ![50688, 1024]⟩
abbrev S50688 : Shape := ⟨1, ![50688]⟩
abbrev S1x50688 : Shape := ⟨2, ![1, 50688]⟩
abbrev S2x2048x1 : Shape := ⟨3, ![2, 2048, 1]⟩
abbrev S1x2048x1024 : Shape := ⟨3, ![1, 2048, 1024]⟩
abbrev S512x1024 : Shape := ⟨2, ![512, 1024]⟩
abbrev S1x512 : Shape := ⟨2, ![1, 512]⟩
abbrev S1x2048x1 : Shape := ⟨3, ![1, 2048, 1]⟩
abbrev S2048x1 : Shape := ⟨2, ![2048, 1]⟩
abbrev S2048x1024 : Shape := ⟨2, ![2048, 1024]⟩
abbrev S2048x512 : Shape := ⟨2, ![2048, 512]⟩
abbrev S2048 : Shape := ⟨1, ![2048]⟩

abbrev nBuf : Space → Nat
  | .hbm => 48
  | .vmem => 10
  | .smem => 0
  | _ => 0

abbrev bufTy : (tb : Table) → Fin (tcTables nBuf tb) → BufTy
  | .hbm, ⟨0, _⟩ => ⟨S2x2048x1024, .f32⟩
  | .hbm, ⟨1, _⟩ => ⟨S50257x1024, .f32⟩
  | .hbm, ⟨2, _⟩ => ⟨S50257, .f32⟩
  | .hbm, ⟨3, _⟩ => ⟨S2x2048, .i32⟩
  | .hbm, ⟨4, _⟩ => ⟨S2x2047x1024, .f32⟩
  | .hbm, ⟨5, _⟩ => ⟨S2x2047, .i32⟩
  | .hbm, ⟨6, _⟩ => ⟨S_, .i32⟩
  | .hbm, ⟨7, _⟩ => ⟨S2x2047, .i32⟩
  | .hbm, ⟨8, _⟩ => ⟨S2x2047, .i1⟩
  | .hbm, ⟨9, _⟩ => ⟨S_, .i32⟩
  | .hbm, ⟨10, _⟩ => ⟨S2x2047, .i32⟩
  | .hbm, ⟨11, _⟩ => ⟨S2x2047, .i32⟩
  | .hbm, ⟨12, _⟩ => ⟨S2x2047, .i32⟩
  | .hbm, ⟨13, _⟩ => ⟨S2x2047x1, .i32⟩
  | .hbm, ⟨14, _⟩ => ⟨S2x2047x1024, .f32⟩
  | .hbm, ⟨15, _⟩ => ⟨S_, .i32⟩
  | .hbm, ⟨16, _⟩ => ⟨S2x2047, .i32⟩
  | .hbm, ⟨17, _⟩ => ⟨S2x2047, .i1⟩
  | .hbm, ⟨18, _⟩ => ⟨S_, .i32⟩
  | .hbm, ⟨19, _⟩ => ⟨S2x2047, .i32⟩
  | .hbm, ⟨20, _⟩ => ⟨S2x2047, .i32⟩
  | .hbm, ⟨21, _⟩ => ⟨S2x2047, .i32⟩
  | .hbm, ⟨22, _⟩ => ⟨S2x2047x1, .i32⟩
  | .hbm, ⟨23, _⟩ => ⟨S2x2047, .f32⟩
  | .hbm, ⟨24, _⟩ => ⟨S2x2047x1024, .f32⟩
  | .hbm, ⟨25, _⟩ => ⟨S_, .f32⟩
  | .hbm, ⟨26, _⟩ => ⟨S2x2047, .f32⟩
  | .hbm, ⟨27, _⟩ => ⟨S2x2047, .f32⟩
  | .hbm, ⟨28, _⟩ => ⟨S_, .i32⟩
  | .hbm, ⟨29, _⟩ => ⟨S_, .f32⟩
  | .hbm, ⟨30, _⟩ => ⟨S2x2048x1024, .f32⟩
  | .hbm, ⟨31, _⟩ => ⟨S2x2048x1024, .bf16⟩
  | .hbm, ⟨32, _⟩ => ⟨S_, .i32⟩
  | .hbm, ⟨33, _⟩ => ⟨S_, .f32⟩
  | .hbm, ⟨34, _⟩ => ⟨S50688x1024, .f32⟩
  | .hbm, ⟨35, _⟩ => ⟨S50688x1024, .bf16⟩
  | .hbm, ⟨36, _⟩ => ⟨S_, .i32⟩
  | .hbm, ⟨37, _⟩ => ⟨S_, .f32⟩
  | .hbm, ⟨38, _⟩ => ⟨S50688, .f32⟩
  | .hbm, ⟨39, _⟩ => ⟨S1x50688, .f32⟩
  | .hbm, ⟨40, _⟩ => ⟨S2x2048x1, .f32⟩
  | .hbm, ⟨41, _⟩ => ⟨S2x2047x1, .f32⟩
  | .hbm, ⟨42, _⟩ => ⟨S2x2047, .f32⟩
  | .hbm, ⟨43, _⟩ => ⟨S2x2047, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .local _ .vmem, ⟨0, _⟩ => ⟨S1x2048x1024, .bf16⟩
  | .local _ .vmem, ⟨1, _⟩ => ⟨S1x2048x1024, .bf16⟩
  | .local _ .vmem, ⟨2, _⟩ => ⟨S512x1024, .bf16⟩
  | .local _ .vmem, ⟨3, _⟩ => ⟨S512x1024, .bf16⟩
  | .local _ .vmem, ⟨4, _⟩ => ⟨S1x512, .f32⟩
  | .local _ .vmem, ⟨5, _⟩ => ⟨S1x512, .f32⟩
  | .local _ .vmem, ⟨6, _⟩ => ⟨S1x2048x1, .f32⟩
  | .local _ .vmem, ⟨7, _⟩ => ⟨S1x2048x1, .f32⟩
  | .local _ .vmem, ⟨8, _⟩ => ⟨S2048x1, .f32⟩
  | .local _ .vmem, ⟨9, _⟩ => ⟨S2048x1, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_1 : Ref sig .tc := ⟨.hbm, 15, rfl⟩
abbrev main_v9 : Ref sig .tc := ⟨.hbm, 16, rfl⟩
abbrev main_v10 : Ref sig .tc := ⟨.hbm, 17, rfl⟩
abbrev main_c_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst : Ref sig .tc := ⟨.hbm, 25, rfl⟩
abbrev main_v17 : Ref sig .tc := ⟨.hbm, 26, rfl⟩
abbrev main_v18 : Ref sig .tc := ⟨.hbm, 27, rfl⟩
abbrev main_c_3 : Ref sig .tc := ⟨.hbm, 28, rfl⟩
abbrev main_call0_v0 : Ref sig .tc := ⟨.hbm, 29, rfl⟩
abbrev main_v19 : Ref sig .tc := ⟨.hbm, 30, rfl⟩
abbrev main_v20 : Ref sig .tc := ⟨.hbm, 31, rfl⟩
abbrev main_c_4 : Ref sig .tc := ⟨.hbm, 32, rfl⟩
abbrev main_call1_v0 : Ref sig .tc := ⟨.hbm, 33, rfl⟩
abbrev main_v21 : Ref sig .tc := ⟨.hbm, 34, rfl⟩
abbrev main_v22 : Ref sig .tc := ⟨.hbm, 35, rfl⟩
abbrev main_c_5 : Ref sig .tc := ⟨.hbm, 36, rfl⟩
abbrev main_call2_v0 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_6 : Ref sig .tc := ⟨.hbm, 44, rfl⟩
abbrev main_v29 : Ref sig .tc := ⟨.hbm, 45, rfl⟩
abbrev main_cst_7 : Ref sig .tc := ⟨.hbm, 46, rfl⟩
abbrev main_v30 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 99], ![false, false]⟩

def k0_cond2 (i : grid0.Coords) : BitVec 1 :=
  let arg1 : BitVec 32 := BitVec.ofNat 32 (i 1).val
  let c98_i32 : BitVec 32 := 98#32
  let v40 : BitVec 1 := Scalar.cmpi .eq arg1 c98_i32
  let v41 : BitVec 32 := Scalar.extui v40
  let c0_i32_18 : BitVec 32 := 0#32
  let v42 : BitVec 1 := Scalar.cmpi .ne v41 c0_i32_18
  v42

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  slices_S2x2048x1024_S2x2047x1024_0_0_0 : S2x2048x1024.Slices ![0, 0, 0] S2x2047x1024
  slices_S2x2048_S2x2047_0_1 : S2x2048.Slices ![0, 1] S2x2047
  bcast_S_S2x2047 : S_.BroadcastsInDim S2x2047 (![] : Fin 0 → Fin S2x2047.rank)
  bcast_S2x2047_S2x2047x1_0_1 : S2x2047.BroadcastsInDim S2x2047x1 (![0, 1] : Fin 2 → Fin S2x2047x1.rank)
  reducesTo_S2x2047x1024_S2x2047_d2 : S2x2047x1024.ReducesTo [2] S2x2047
  h_S_ : 0 < S_.numel
  pads_S2x2047x1024_S2x2048x1024_000_010_000 : S2x2047x1024.Pads (![0, 0, 0] : Fin 3 → Nat) ![0, 1, 0] ![0, 0, 0] S2x2048x1024
  bitsLt_bf16_f32 : FTy.bits .bf16 < FTy.bits .f32
  pads_S50257x1024_S50688x1024_04310_000 : S50257x1024.Pads (![0, 0] : Fin 2 → Nat) ![431, 0] ![0, 0] S50688x1024
  pads_S50257_S50688_04310 : S50257.Pads (![0] : Fin 1 → Nat) ![431] ![0] S50688
  shapeCasts_S50688_S1x50688 : S50688.ShapeCasts S1x50688
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  iota_S2048x512_d1_w32 : S2048x512.Iotas .tc 32 [1]
  reduces_S2048x512_S2048 : S2048x512.Reduces [1] S2048
  shapeCasts_S2048_S2048x1 : S2048.ShapeCasts S2048x1
  broadcasts_S2048x1_S2048x512 : S2048x1.Broadcasts S2048x512
  inb_S1x2048x1_S1x2048x1_0_0_0 : ∀ a, (![0, 0, 0] : Fin 3 → Nat) a + S1x2048x1.size a ≤ S1x2048x1.size a
  h_S1x2048x1 : 0 < S1x2048x1.numel
  shapeCasts_S1x2048x1_S2048x1 : S1x2048x1.ShapeCasts S2048x1
  shapeCasts_S2048x1_S1x2048x1 : S2048x1.ShapeCasts S1x2048x1
  slices_S2x2048x1_S2x2047x1_0_0_0 : S2x2048x1.Slices ![0, 0, 0] S2x2047x1
  shapeCasts_S2x2047x1_S2x2047 : S2x2047x1.ShapeCasts S2x2047
  reducesTo_S2x2047_S_d0_1 : S2x2047.ReducesTo [0, 1] S_
  gather_S50257x1024_S2x2047x1_S2x2047x1024_2_0_n_n_0_2_11024_wf : GatherDims.WF S50257x1024 S2x2047x1 S2x2047x1024 [2] [0] [] [0] [] 2 ![1, 1024]
  gather_S50257_S2x2047x1_S2x2047_n_0_n_n_0_2_1_wf : GatherDims.WF S50257 S2x2047x1 S2x2047 [] [0] [] [0] [] 2 ![1]
  dot_S2048x1024_S512x1024_S2048x512_1_1_0_0_n_n_wf : DotDims.WF S2048x1024 S512x1024 S2048x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x1024.size a ≤ S2x2048x1024.size a
  hwx0_0 : ∀ i : grid0.Coords, EltTy.bits .bf16 = 32 ∨ (Rect.block (s := S2x2048x1024) S1x2048x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S50688x1024.size a
  hwx0_1 : ∀ i : grid0.Coords, EltTy.bits .bf16 = 32 ∨ (Rect.block (s := S50688x1024) S512x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x50688.size a
  hwx0_2 : ∀ i : grid0.Coords, EltTy.bits .f32 = 32 ∨ (Rect.block (s := S1x50688) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x1.size a ≤ S2x2048x1.size a
  hwx0_3 : ∀ i : grid0.Coords, EltTy.bits .f32 = 32 ∨ (Rect.block (s := S2x2048x1) S1x2048x1.size (cc0_transform_3 i) (hinb0_3 i)).WholeWords (EltTy.packing .f32)

variable [Facts₀]

def gather_S50257x1024_S2x2047x1_S2x2047x1024_2_0_n_n_0_2_11024 : GatherDims S50257x1024 S2x2047x1 S2x2047x1024 where
  offsetDims := [2]
  collapsedSliceDims := [0]
  operandBatchingDims := []
  startIndicesBatchingDims := []
  startIndexMap := [0]
  indexVectorDim := 2
  sliceSizes := ![1, 1024]
  wf := gather_S50257x1024_S2x2047x1_S2x2047x1024_2_0_n_n_0_2_11024_wf
def gather_S50257_S2x2047x1_S2x2047_n_0_n_n_0_2_1 : GatherDims S50257 S2x2047x1 S2x2047 where
  offsetDims := []
  collapsedSliceDims := [0]
  operandBatchingDims := []
  startIndicesBatchingDims := []
  startIndexMap := [0]
  indexVectorDim := 2
  sliceSizes := ![1]
  wf := gather_S50257_S2x2047x1_S2x2047_n_0_n_n_0_2_1_wf
def dot_S2048x1024_S512x1024_S2048x512_1_1_0_0_n_n : DotDims S2048x1024 S512x1024 S2048x512 where
  lhsContracting := [1]
  rhsContracting := [1]
  lhsNonContracting := [0]
  rhsNonContracting := [0]
  lhsBatch := []
  rhsBatch := []
  wf := dot_S2048x1024_S512x1024_S2048x512_1_1_0_0_n_n_wf

abbrev win0_0 : Pipeline.Window sig grid0 :=
  Pipeline.Window.ofSpec (Memref.whole main_v20) S1x2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v24) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x2048x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S2x2048x1024 : Shape := ⟨3, ![2, 2048, 1024]⟩
abbrev S50257x1024 : Shape := ⟨2, ![50257, 1024]⟩
abbrev S50257 : Shape := ⟨1, ![50257]⟩
abbrev S2x2048 : Shape := ⟨2, ![2, 2048]⟩
abbrev S2x2047x1024 : Shape := ⟨3, ![2, 2047, 1024]⟩
abbrev S2x2047 : Shape := ⟨2, ![2, 2047]⟩
abbrev S2x2047x50257 : Shape := ⟨3, ![2, 2047, 50257]⟩
abbrev S1x1x50257 : Shape := ⟨3, ![1, 1, 50257]⟩
abbrev S_ : Shape := ⟨0, ![]⟩
abbrev S2x2047x1 : Shape := ⟨3, ![2, 2047, 1]⟩
abbrev S2x2047x1x1 : Shape := ⟨4, ![2, 2047, 1, 1]⟩
abbrev S1 : Shape := ⟨1, ![1]⟩
abbrev S1x1x1x1 : Shape := ⟨4, ![1, 1, 1, 1]⟩

abbrev nBuf : Space → Nat
  | .hbm => 54
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S50257x1024, .f32⟩
  | .hbm, ⟨2, _⟩ => ⟨S50257, .f32⟩
  | .hbm, ⟨3, _⟩ => ⟨S2x2048, .i32⟩
  | .hbm, ⟨4, _⟩ => ⟨S2x2047x1024, .f32⟩
  | .hbm, ⟨5, _⟩ => ⟨S2x2047, .i32⟩
  | .hbm, ⟨6, _⟩ => ⟨S2x2047x50257, .f32⟩
  | .hbm, ⟨7, _⟩ => ⟨S1x1x50257, .f32⟩
  | .hbm, ⟨8, _⟩ => ⟨S2x2047x50257, .f32⟩
  | .hbm, ⟨9, _⟩ => ⟨S2x2047x50257, .f32⟩
  | .hbm, ⟨10, _⟩ => ⟨S_, .f32⟩
  | .hbm, ⟨11, _⟩ => ⟨S2x2047, .f32⟩
  | .hbm, ⟨12, _⟩ => ⟨S_, .f32⟩
  | .hbm, ⟨13, _⟩ => ⟨S2x2047, .f32⟩
  | .hbm, ⟨14, _⟩ => ⟨S2x2047, .f32⟩
  | .hbm, ⟨15, _⟩ => ⟨S2x2047x1, .f32⟩
  | .hbm, ⟨16, _⟩ => ⟨S2x2047x50257, .f32⟩
  | .hbm, ⟨17, _⟩ => ⟨S2x2047x50257, .f32⟩
  | .hbm, ⟨18, _⟩ => ⟨S2x2047x50257, .f32⟩
  | .hbm, ⟨19, _⟩ => ⟨S_, .f32⟩
  | .hbm, ⟨20, _⟩ => ⟨S2x2047, .f32⟩
  | .hbm, ⟨21, _⟩ => ⟨S2x2047x1, .f32⟩
  | .hbm, ⟨22, _⟩ => ⟨S2x2047x1, .f32⟩
  | .hbm, ⟨23, _⟩ => ⟨S2x2047x50257, .f32⟩
  | .hbm, ⟨24, _⟩ => ⟨S2x2047x50257, .f32⟩
  | .hbm, ⟨25, _⟩ => ⟨S2x2047x1, .i32⟩
  | .hbm, ⟨26, _⟩ => ⟨S_, .i32⟩
  | .hbm, ⟨27, _⟩ => ⟨S2x2047x1, .i32⟩
  | .hbm, ⟨28, _⟩ => ⟨S2x2047x1, .i1⟩
  | .hbm, ⟨29, _⟩ => ⟨S_, .i32⟩
  | .hbm, ⟨30, _⟩ => ⟨S2x2047x1, .i32⟩
  | .hbm, ⟨31, _⟩ => ⟨S2x2047x1, .i32⟩
  | .hbm, ⟨32, _⟩ => ⟨S2x2047x1, .i32⟩
  | .hbm, ⟨33, _⟩ => ⟨S2x2047x1x1, .i32⟩
  | .hbm, ⟨34, _⟩ => ⟨S1, .i32⟩
  | .hbm, ⟨35, _⟩ => ⟨S_, .i32⟩
  | .hbm, ⟨36, _⟩ => ⟨S2x2047x1x1, .i32⟩
  | .hbm, ⟨37, _⟩ => ⟨S2x2047x1x1, .i1⟩
  | .hbm, ⟨38, _⟩ => ⟨S1x1x1x1, .i32⟩
  | .hbm, ⟨39, _⟩ => ⟨S2x2047x1x1, .i32⟩
  | .hbm, ⟨40, _⟩ => ⟨S2x2047x1x1, .i1⟩
  | .hbm, ⟨41, _⟩ => ⟨S2x2047x1x1, .i1⟩
  | .hbm, ⟨42, _⟩ => ⟨S_, .i1⟩
  | .hbm, ⟨43, _⟩ => ⟨S2x2047x1, .i1⟩
  | .hbm, ⟨44, _⟩ => ⟨S2x2047x1, .f32⟩
  | .hbm, ⟨45, _⟩ => ⟨S_, .f32⟩
  | .hbm, ⟨46, _⟩ => ⟨S2x2047x1, .f32⟩
  | .hbm, ⟨47, _⟩ => ⟨S2x2047x1, .f32⟩
  | .hbm, ⟨48, _⟩ => ⟨S2x2047, .f32⟩
  | .hbm, ⟨49, _⟩ => ⟨S2x2047, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_cst : Ref sig .tc := ⟨.hbm, 10, rfl⟩
abbrev main_call0_v0 : Ref sig .tc := ⟨.hbm, 11, rfl⟩
abbrev main_call0_cst_0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_cst_1 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_v6 : Ref sig .tc := ⟨.hbm, 24, rfl⟩
abbrev main_v7 : Ref sig .tc := ⟨.hbm, 25, rfl⟩
abbrev main_call1_c : Ref sig .tc := ⟨.hbm, 26, rfl⟩
abbrev main_call1_v0 : Ref sig .tc := ⟨.hbm, 27, rfl⟩
abbrev main_call1_v1 : Ref sig .tc := ⟨.hbm, 28, rfl⟩
abbrev main_call1_c_0 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_v5 : Ref sig .tc := ⟨.hbm, 33, rfl⟩
abbrev main_call1_c_1 : Ref sig .tc := ⟨.hbm, 34, rfl⟩
abbrev main_call1_c_2 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_3 : Ref sig .tc := ⟨.hbm, 42, rfl⟩
abbrev main_call1_v12 : Ref sig .tc := ⟨.hbm, 43, rfl⟩
abbrev main_call1_v13 : Ref sig .tc := ⟨.hbm, 44, rfl⟩
abbrev main_call1_cst : Ref sig .tc := ⟨.hbm, 45, rfl⟩
abbrev main_call1_v14 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_cst : Ref sig .tc := ⟨.hbm, 50, rfl⟩
abbrev main_v11 : Ref sig .tc := ⟨.hbm, 51, rfl⟩
abbrev main_cst_0 : Ref sig .tc := ⟨.hbm, 52, rfl⟩
abbrev main_v12 : Ref sig .tc := ⟨.hbm, 53, rfl⟩

abbrev nD : Nat := 1
abbrev τ : Topo := Topo.v7x

variable {F : FTy → Type} [FloatOps F]

class Facts₀ : Prop where
  slices_S2x2048x1024_S2x2047x1024_0_0_0 : S2x2048x1024.Slices ![0, 0, 0] S2x2047x1024
  slices_S2x2048_S2x2047_0_1 : S2x2048.Slices ![0, 1] S2x2047
  bcast_S50257_S1x1x50257_2 : S50257.BroadcastsInDim S1x1x50257 (![2] : Fin 1 → Fin S1x1x50257.rank)
  bcast_S1x1x50257_S2x2047x50257_0_1_2 : S1x1x50257.BroadcastsInDim S2x2047x50257 (![0, 1, 2] : Fin 3 → Fin S2x2047x50257.rank)
  reducesTo_S2x2047x50257_S2x2047_d2 : S2x2047x50257.ReducesTo [2] S2x2047
  h_S_ : 0 < S_.numel
  bcast_S_S2x2047 : S_.BroadcastsInDim S2x2047 (![] : Fin 0 → Fin S2x2047.rank)
  bcast_S2x2047_S2x2047x1_0_1 : S2x2047.BroadcastsInDim S2x2047x1 (![0, 1] : Fin 2 → Fin S2x2047x1.rank)
  bcast_S2x2047x1_S2x2047x50257_0_1_2 : S2x2047x1.BroadcastsInDim S2x2047x50257 (![0, 1, 2] : Fin 3 → Fin S2x2047x50257.rank)
  bcast_S_S2x2047x1 : S_.BroadcastsInDim S2x2047x1 (![] : Fin 0 → Fin S2x2047x1.rank)
  shapeCasts_S2x2047x1_S2x2047x1x1 : S2x2047x1.ShapeCasts S2x2047x1x1
  bcast_S_S2x2047x1x1 : S_.BroadcastsInDim S2x2047x1x1 (![] : Fin 0 → Fin S2x2047x1x1.rank)
  bcast_S1_S1x1x1x1_3 : S1.BroadcastsInDim S1x1x1x1 (![3] : Fin 1 → Fin S1x1x1x1.rank)
  bcast_S1x1x1x1_S2x2047x1x1_0_1_2_3 : S1x1x1x1.BroadcastsInDim S2x2047x1x1 (![0, 1, 2, 3] : Fin 4 → Fin S2x2047x1x1.rank)
  reducesTo_S2x2047x1x1_S2x2047x1_d3 : S2x2047x1x1.ReducesTo [3] S2x2047x1
  shapeCasts_S2x2047x1_S2x2047 : S2x2047x1.ShapeCasts S2x2047
  reducesTo_S2x2047_S_d0_1 : S2x2047.ReducesTo [0, 1] S_
  dot_S2x2047x1024_S50257x1024_S2x2047x50257_2_1_01_0_n_n_wf : DotDims.WF S2x2047x1024 S50257x1024 S2x2047x50257 [2] [1] [0, 1] [0] [] []
  gather_S2x2047x50257_S2x2047x1x1_S2x2047x1_n_2_01_01_2_3_111_wf : GatherDims.WF S2x2047x50257 S2x2047x1x1 S2x2047x1 [] [2] [0, 1] [2] [0, 1] 3 ![1, 1, 1]

variable [Facts₀]

def dot_S2x2047x1024_S50257x1024_S2x2047x50257_2_1_01_0_n_n : DotDims S2x2047x1024 S50257x1024 S2x2047x50257 where
  lhsContracting := [2]
  rhsContracting := [1]
  lhsNonContracting := [0, 1]
  rhsNonContracting := [0]
  lhsBatch := []
  rhsBatch := []
  wf := dot_S2x2047x1024_S50257x1024_S2x2047x50257_2_1_01_0_n_n_wf
def gather_S2x2047x50257_S2x2047x1x1_S2x2047x1_n_2_01_01_2_3_111 : GatherDims S2x2047x50257 S2x2047x1x1 S2x2047x1 where
  offsetDims := []
  collapsedSliceDims := [2]
  operandBatchingDims := [0, 1]
  startIndicesBatchingDims := [0, 1]
  startIndexMap := [2]
  indexVectorDim := 3
  sliceSizes := ![1, 1, 1]
  wf := gather_S2x2047x50257_S2x2047x1x1_S2x2047x1_n_2_01_01_2_3_111_wf

class Facts : Prop extends Facts₀ where

variable [Facts]
-- ==== Proof.Spec.lean ====
/-
  What both programs compute, as mathematics over the four argument arrays.

  A row is a position (b, s) of the batch; its logits are x n = ∑ₖ E[b,s,k]·W[n,k] + bias[n] for the 50257 vocabulary
  columns n. The loss of the row is logsumexp(x) − x[label], and the result is the mean of the 2·2047 rows' losses
  (position s is scored against the label of position s+1, so the last position of each batch element has no row).
  The logsumexp is written the way it is accumulated tile by tile: after the first n tiles of 512 columns the
  running maximum `runMax x n` and the running sum `runSum x n` of exp(x j − runMax x n) over the columns seen so far;
  99 tiles cover all 50257 columns (the last one only partly), and lse x = runMax x 99 + log (runSum x 99).
-/
import Idealize.ShloMosaic.PureOps.Ideal
import Idealize.ShloMosaic.PureOps.Ideal.Laws
import Idealize.ShloMosaic.Lib.ValueIdx

noncomputable section

open scoped BigOperators

namespace Cert.Lse

open Idealize.ShloMosaic Idealize.ShloMosaic.ValueIdx

abbrev SE : Shape := ⟨3, ![2, 2048, 1024]⟩
abbrev SW : Shape := ⟨2, ![50257, 1024]⟩
abbrev SB : Shape := ⟨1, ![50257]⟩
abbrev SL : Shape := ⟨2, ![2, 2048]⟩
abbrev SN : Shape := ⟨2, ![2, 2047]⟩
abbrev S0 : Shape := ⟨0, ![]⟩

/-- How many vocabulary columns the first `n` tiles of 512 cover. -/
def cnt (n : ℕ) : ℕ := min (n * 512) 50257

/-- The logit of row (b, s) at column n, as a real number (0 beyond the vocabulary). -/
def xr (E : FVec Ideal SE .f32) (W : FVec Ideal SW .f32) (Bv : FVec Ideal SB .f32) (b : Fin 2) (s : Fin 2048) (n : ℕ) : ℝ :=
  if h : n < 50257 then (∑ k : Fin 1024, (E (ix3 b s k)).toReal * (W (ix2 ⟨n, h⟩ k)).toReal) + (Bv (ix1 ⟨n, h⟩)).toReal else 0

/-- The largest of the logits in the first `n` tiles (for n ≥ 1). -/
def runMax (x : ℕ → ℝ) (n : ℕ) : ℝ := (Finset.range (cnt n)).fold max (x 0) x

/-- The sum of exp (x j − runMax x n) over the columns of the first `n` tiles. -/
def runSum (x : ℕ → ℝ) (n : ℕ) : ℝ := ∑ j ∈ Finset.range (cnt n), Real.exp (x j - runMax x n)

/-- logsumexp of the 50257 logits. -/
def lse (x : ℕ → ℝ) : ℝ := runMax x 99 + Real.log (runSum x 99)

/-- The label that row (b, s) is scored against: the label of position s + 1. -/
def lab (L : IVec SL 32) (b : Fin 2) (s : Fin 2047) : ℕ := (L (ix2 b ⟨s.val + 1, by omega⟩)).toNat

/-- The loss of row (b, s). -/
def nllAt (E : FVec Ideal SE .f32) (W : FVec Ideal SW .f32) (Bv : FVec Ideal SB .f32) (L : IVec SL 32) (b : Fin 2) (s : Fin 2047) : EReal :=
  ((lse (xr E W Bv b ⟨s.val, by omega⟩) : ℝ) : EReal) - ((xr E W Bv b ⟨s.val, by omega⟩ (lab L b s) : ℝ) : EReal)

/-- The rows' losses as an array. -/
def nll (E : FVec Ideal SE .f32) (W : FVec Ideal SW .f32) (Bv : FVec Ideal SB .f32) (L : IVec SL 32) : FVec Ideal SN .f32 :=
  fun j => nllAt E W Bv L (j 0) (j 1)

theorem nll_apply (E : FVec Ideal SE .f32) (W : FVec Ideal SW .f32) (Bv : FVec Ideal SB .f32) (L : IVec SL 32) (b : Fin 2) (s : Fin 2047) :
    nll E W Bv L (ix2 b s) = nllAt E W Bv L b s := rfl

/-- The mean of the 4094 losses, as both programs take it: the host's sum from 0, divided by 4094. -/
def meanTail (hr : SN.ReducesTo [0, 1] S0) (h0 : 0 < S0.numel) (v : FVec Ideal SN .f32) : FVec Ideal S0 .f32 :=
  Host.divf (Host.reduceAdd v (constant (F := Ideal) S0 .f32 0x00000000#32) hr h0) (constant (F := Ideal) S0 .f32 0x457FE000#32)

/-- Every entry of the three float arrays is a real number. -/
structure Finite (E : FVec Ideal SE .f32) (W : FVec Ideal SW .f32) (Bv : FVec Ideal SB .f32) : Prop where
  hE : ∀ i, E i ≠ ⊤ ∧ E i ≠ ⊥
  hW : ∀ i, W i ≠ ⊤ ∧ W i ≠ ⊥
  hB : ∀ i, Bv i ≠ ⊤ ∧ Bv i ≠ ⊥

/-- Every label that scores a row is a vocabulary column. -/
def LabelsOk (L : IVec SL 32) : Prop := ∀ (b : Fin 2) (s : Fin 2047), 0 ≤ (L (ix2 b ⟨s.val + 1, by omega⟩)).toInt ∧ (L (ix2 b ⟨s.val + 1, by omega⟩)).toInt < 50257

end Cert.Lse

end
-- ==== Proof.Online.lean ====
/-
  The tile-by-tile accumulation of a logsumexp, on the extended reals.
-/
import proofs.«430012_j79843442033222_1_alg».proof.Proof.Spec
import Mathlib.Data.Finset.Fold
import Mathlib.Data.EReal.Basic
import Mathlib.Data.EReal.Operations
import Mathlib.Algebra.BigOperators.Group.Finset.Basic
import Mathlib.Algebra.BigOperators.Fin
import Mathlib.Analysis.SpecialFunctions.Log.Basic

noncomputable section

open scoped BigOperators

namespace Cert.Lse

open Idealize.ShloMosaic Idealize.ShloMosaic.ValueIdx

/-- The coercion of a finite sum of reals is the sum of the coercions. -/
private theorem coe_sum {ι : Type*} (s : Finset ι) (g : ι → ℝ) :
    (∑ i ∈ s, ((g i : ℝ) : EReal)) = ((∑ i ∈ s, g i : ℝ) : EReal) := by
  classical
  induction s using Finset.induction_on with
  | empty => simp
  | insert a s ha ih => rw [Finset.sum_insert ha, Finset.sum_insert ha, ih, EReal.coe_add]

/-- A row's logit is the real number `xr` when the arrays hold real numbers. -/
theorem logit_coe (E : FVec Ideal SE .f32) (W : FVec Ideal SW .f32) (Bv : FVec Ideal SB .f32) (hfin : Finite E W Bv)
    (b : Fin 2) (s : Fin 2048) (n : Fin 50257) :
    (∑ k : Fin 1024, E (ix3 b s k) * W (ix2 n k)) + Bv (ix1 n) = ((xr E W Bv b s n.val : ℝ) : EReal) := by
  unfold xr
  rw [dif_pos n.isLt]
  simp only [Fin.eta]
  rw [EReal.coe_add, ← coe_sum]
  congr 1
  · apply Finset.sum_congr rfl
    intro k _
    rw [EReal.coe_mul, EReal.coe_toReal (hfin.hE _).1 (hfin.hE _).2, EReal.coe_toReal (hfin.hW _).1 (hfin.hW _).2]
  · rw [EReal.coe_toReal (hfin.hB _).1 (hfin.hB _).2]

/-! The number of columns covered by the first tiles. -/

private theorem cnt_zero : cnt 0 = 0 := by simp [cnt]
private theorem cnt_99 : cnt 99 = 50257 := by norm_num [cnt]
private theorem cnt_lt (v : ℕ) (hv : v < 99) : cnt v = v * 512 := by
  unfold cnt; omega
private theorem cnt_succ (v : ℕ) : cnt (v + 1) = min (v * 512 + 512) 50257 := by
  unfold cnt; congr 1; ring
private theorem cnt_mono (v : ℕ) : cnt v ≤ cnt (v + 1) := by
  unfold cnt; omega
private theorem cnt_succ_pos (v : ℕ) : 0 < cnt (v + 1) := by
  unfold cnt; omega

/-- Every column seen is at most the running maximum. -/
private theorem le_runMax (x : ℕ → ℝ) (n j : ℕ) (hj : j < cnt n) : x j ≤ runMax x n :=
  (Finset.le_fold_max _).mpr (Or.inr ⟨j, Finset.mem_range.mpr hj, le_rfl⟩)

private theorem runMax_attained (x : ℕ → ℝ) (n : ℕ) (hn : 0 < cnt n) : ∃ j, j < cnt n ∧ runMax x n = x j := by
  have h : runMax x n ≤ (Finset.range (cnt n)).fold max (x 0) x := le_rfl
  rcases (Finset.le_fold_max _).mp h with h0 | ⟨j, hj, hle⟩
  · exact ⟨0, hn, le_antisymm h0 (le_runMax x n 0 hn)⟩
  · have hj' := Finset.mem_range.mp hj
    exact ⟨j, hj', le_antisymm hle (le_runMax x n j hj')⟩

private theorem runMax_le (x : ℕ → ℝ) (n : ℕ) (c : ℝ) (hn : 0 < cnt n) (h : ∀ j, j < cnt n → x j ≤ c) : runMax x n ≤ c :=
  (Finset.fold_max_le _).mpr ⟨h 0 hn, fun j hj => h j (Finset.mem_range.mp hj)⟩

/-- Column j of tile v of a row: its logit, or −∞ beyond the vocabulary. -/
def tileEntry (x : ℕ → ℝ) (v : ℕ) (j : Fin 512) : EReal :=
  if v * 512 + j.val < 50257 then ((x (v * 512 + j.val) : ℝ) : EReal) else ⊥

/-- The running maximum before tile v: −∞ before the first. -/
def mPrev (x : ℕ → ℝ) (v : ℕ) : EReal := if v = 0 then ⊥ else ((runMax x v : ℝ) : EReal)

/-- The running sum before tile v: 0 before the first. -/
def lPrev (x : ℕ → ℝ) (v : ℕ) : EReal := if v = 0 then 0 else ((runSum x v : ℝ) : EReal)

theorem step_max (x : ℕ → ℝ) (v : ℕ) (hv : v < 99) :
    max (mPrev x v) ((Finset.univ : Finset (Fin 512)).fold max ⊥ (tileEntry x v)) = ((runMax x (v + 1) : ℝ) : EReal) := by
  have hc : cnt v = v * 512 := cnt_lt v hv
  have hc1 : cnt (v + 1) = min (v * 512 + 512) 50257 := cnt_succ v
  apply le_antisymm
  · apply max_le
    · unfold mPrev
      split_ifs with h0
      · exact bot_le
      · apply EReal.coe_le_coe_iff.mpr
        apply runMax_le x v _ (by rw [hc]; omega)
        intro j hj
        exact le_runMax x (v+1) j (lt_of_lt_of_le hj (cnt_mono v))
    · apply (Finset.fold_max_le _).mpr
      refine ⟨bot_le, fun j _ => ?_⟩
      unfold tileEntry
      split_ifs with h
      · apply EReal.coe_le_coe_iff.mpr
        apply le_runMax
        rw [hc1]; have := j.isLt; omega
      · exact bot_le
  · obtain ⟨j0, hj0, he⟩ := runMax_attained x (v+1) (cnt_succ_pos v)
    rw [he]
    by_cases hlt : j0 < v * 512
    · apply le_max_of_le_left
      have hv0 : v ≠ 0 := by rintro rfl; omega
      unfold mPrev; rw [if_neg hv0]
      apply EReal.coe_le_coe_iff.mpr
      apply le_runMax; rw [hc]; exact hlt
    · apply le_max_of_le_right
      apply (Finset.le_fold_max _).mpr
      right
      have h1 : j0 < v * 512 + 512 := by rw [hc1] at hj0; omega
      have h2 : j0 < 50257 := by rw [hc1] at hj0; omega
      refine ⟨⟨j0 - v * 512, by omega⟩, Finset.mem_univ _, ?_⟩
      have e : v * 512 + (j0 - v * 512) = j0 := by omega
      unfold tileEntry
      simp only [e, h2, if_true]
      exact le_rfl

/-- Summing over the columns below min N K is summing over the columns below N, those from K on counting 0. -/
private theorem sum_range_min (g : ℕ → ℝ) (N K : ℕ) :
    ∑ j ∈ Finset.range (min N K), g j = ∑ j ∈ Finset.range N, (if j < K then g j else 0) := by
  rw [← Finset.sum_filter]
  congr 1
  ext j
  simp only [Finset.mem_filter, Finset.mem_range, lt_min_iff]

/-- The columns of the first v + 1 tiles are those of the first v tiles and the columns of tile v inside the vocabulary. -/
private theorem sum_split (g : ℕ → ℝ) (v : ℕ) (hv : v < 99) :
    ∑ j ∈ Finset.range (cnt (v + 1)), g j
      = ∑ j ∈ Finset.range (cnt v), g j
        + ∑ j : Fin 512, (if v * 512 + j.val < 50257 then g (v * 512 + j.val) else 0) := by
  rw [cnt_succ, cnt_lt v hv, sum_range_min, Finset.sum_range_add,
    ← Finset.sum_range (fun j => if v * 512 + j < 50257 then g (v * 512 + j) else 0)]
  congr 1
  apply Finset.sum_congr rfl
  intro j hj
  have := Finset.mem_range.mp hj
  rw [if_pos (by omega)]

private theorem exp_tile (x : ℕ → ℝ) (v : ℕ) (M : ℝ) (j : Fin 512) :
    Ideal.exp (tileEntry x v j - (M : EReal))
      = (((if v * 512 + j.val < 50257 then Real.exp (x (v * 512 + j.val) - M) else 0 : ℝ)) : EReal) := by
  unfold tileEntry
  split_ifs with h
  · rw [← EReal.coe_sub, Ideal.exp_coe]
  · rw [EReal.bot_sub, Ideal.exp_bot, EReal.coe_zero]

/-- Rescaling a sum of exponentials from one reference point to another. -/
private theorem rescale (x : ℕ → ℝ) (s : Finset ℕ) (M M' : ℝ) :
    Real.exp (M - M') * ∑ j ∈ s, Real.exp (x j - M) = ∑ j ∈ s, Real.exp (x j - M') := by
  rw [Finset.mul_sum]
  apply Finset.sum_congr rfl
  intro j _
  rw [← Real.exp_add]
  congr 1
  ring

theorem step_sum (x : ℕ → ℝ) (v : ℕ) (hv : v < 99) :
    Ideal.exp (mPrev x v - ((runMax x (v + 1) : ℝ) : EReal)) * lPrev x v
      + ∑ j : Fin 512, Ideal.exp (tileEntry x v j - ((runMax x (v + 1) : ℝ) : EReal))
    = ((runSum x (v + 1) : ℝ) : EReal) := by
  have hsum : ∑ j : Fin 512, Ideal.exp (tileEntry x v j - ((runMax x (v + 1) : ℝ) : EReal))
      = ((∑ j : Fin 512, (if v * 512 + j.val < 50257 then Real.exp (x (v * 512 + j.val) - runMax x (v + 1)) else 0) : ℝ) : EReal) := by
    rw [← coe_sum]
    apply Finset.sum_congr rfl
    intro j _
    exact exp_tile x v _ j
  have hprev : Ideal.exp (mPrev x v - ((runMax x (v + 1) : ℝ) : EReal)) * lPrev x v
      = ((∑ j ∈ Finset.range (cnt v), Real.exp (x j - runMax x (v + 1)) : ℝ) : EReal) := by
    unfold mPrev lPrev
    by_cases h0 : v = 0
    · subst h0
      rw [if_pos rfl, if_pos rfl, EReal.bot_sub, Ideal.exp_bot, cnt_zero, Finset.range_zero, Finset.sum_empty, mul_zero,
        EReal.coe_zero]
    · rw [if_neg h0, if_neg h0, ← EReal.coe_sub, Ideal.exp_coe, ← EReal.coe_mul]
      unfold runSum
      rw [rescale]
  rw [hsum, hprev, ← EReal.coe_add]
  unfold runSum
  rw [sum_split (fun j => Real.exp (x j - runMax x (v + 1))) v hv]

/-- A nonempty sum of exponentials is positive. -/
private theorem runSum_pos (x : ℕ → ℝ) (n : ℕ) (hn : 0 < cnt n) : 0 < runSum x n := by
  unfold runSum
  apply Finset.sum_pos
  · intro j _; exact Real.exp_pos _
  · exact ⟨0, Finset.mem_range.mpr hn⟩

private theorem log_runSum (x : ℕ → ℝ) :
    Ideal.log ((runSum x 99 : ℝ) : EReal) = ((Real.log (runSum x 99) : ℝ) : EReal) := by
  have hpos : 0 < runSum x 99 := runSum_pos x 99 (by rw [cnt_99]; norm_num)
  rw [Ideal.log_coe, if_neg (not_le.mpr hpos)]

theorem final_lse (x : ℕ → ℝ) :
    ((runMax x 99 : ℝ) : EReal) + Ideal.log ((runSum x 99 : ℝ) : EReal) = ((lse x : ℝ) : EReal) := by
  rw [log_runSum, ← EReal.coe_add]
  rfl

theorem ref_max (x : ℕ → ℝ) :
    (Finset.univ : Finset (Fin 50257)).fold max ⊥ (fun n => ((x n.val : ℝ) : EReal)) = ((runMax x 99 : ℝ) : EReal) := by
  have h99 : 0 < cnt 99 := by rw [cnt_99]; norm_num
  apply le_antisymm
  · apply (Finset.fold_max_le _).mpr
    refine ⟨bot_le, fun n _ => ?_⟩
    apply EReal.coe_le_coe_iff.mpr
    apply le_runMax
    rw [cnt_99]; exact n.isLt
  · obtain ⟨j0, hj0, he⟩ := runMax_attained x 99 h99
    rw [cnt_99] at hj0
    rw [he]
    apply (Finset.le_fold_max _).mpr
    right
    exact ⟨⟨j0, hj0⟩, Finset.mem_univ _, le_rfl⟩

theorem ref_sum (x : ℕ → ℝ) :
    ∑ n : Fin 50257, Ideal.exp (((x n.val : ℝ) : EReal) - ((runMax x 99 : ℝ) : EReal)) = ((runSum x 99 : ℝ) : EReal) := by
  unfold runSum
  rw [cnt_99, Finset.sum_range (fun j => Real.exp (x j - runMax x 99)), ← coe_sum]
  apply Finset.sum_congr rfl
  intro n _
  rw [← EReal.coe_sub, Ideal.exp_coe]

theorem ref_nll (x : ℕ → ℝ) (t : ℕ) :
    -((((x t : ℝ) : EReal) - ((runMax x 99 : ℝ) : EReal)) - Ideal.log ((runSum x 99 : ℝ) : EReal))
      = ((lse x : ℝ) : EReal) - ((x t : ℝ) : EReal) := by
  rw [log_runSum, ← EReal.coe_sub, ← EReal.coe_sub, ← EReal.coe_neg, ← EReal.coe_sub]
  apply congrArg
  unfold lse
  ring

end Cert.Lse

end
-- ==== Proof.RefValue.lean ====
/-
  The reference's result is the mean of the rows' losses.

  Row (b, s) of the reference: logits x n = ∑ₖ E[b,s,k]·W[n,k] + bias[n]; log_softmax subtracts the row maximum M and then
  log ∑ exp (x n − M); the entry at the row's label t is taken and negated: −((x t − M) − log ∑ exp (x n − M)), which is
  lse x − x t. A label in [0, 50257) is its own index (no wrap of a negative, inside the range test, the gather's clamp
  the identity), so the entry taken is the one at column t.
-/
import proofs.«430012_j79843442033222_1_alg».proof.Proof.RefRun
import proofs.«430012_j79843442033222_1_alg».proof.Proof.RefRead
import proofs.«430012_j79843442033222_1_alg».proof.Proof.Spec
import proofs.«430012_j79843442033222_1_alg».proof.Proof.Online
import Idealize.ShloMosaic.PureOps.Reduce
import Idealize.ShloMosaic.PureOps.ShapeOps
import Idealize.ShloMosaic.PureOps.Ideal.Laws
import Idealize.ShloMosaic.Lib.ValueIdx

noncomputable section

namespace Cert.Lse.Ref

open Idealize.ShloMosaic Idealize.ShloMosaic.ValueIdx Cert.ReferenceIdeal Cert.ReferenceIdeal.Gen Cert.Lse Cert.ReferenceIdeal.Read

/-! ## Three operations read at an index: a maximum over the last axis, an and-reduction over an axis of extent one, and a
gather along the last axis with the two leading axes batching. -/

section Reading

variable {B S N : Nat}

/-- Over the last axis of a rank-3 shape, the index above (b, s) with coordinate n is (b, s, n). -/
theorem lift3 (h : (⟨3, ![B, S, N]⟩ : Shape).Reduces [2] ⟨2, ![B, S]⟩) (b : Fin B) (s : Fin S) (n : Fin N) :
    h.lift (ix2 b s) n = ix3 b s n := by
  funext a; refine Fin.ext ?_
  match a with
  | ⟨0, _⟩ => rfl
  | ⟨1, _⟩ => rfl
  | ⟨2, _⟩ => rfl

/-- A maximum over the last axis, read at (b, s): the fold of max over the row from the initial value. -/
theorem rowmax_apply {u : Shape} (x : FVec Ideal ⟨3, ![B, S, N]⟩ .f32) (init : FVec Ideal u .f32)
    (h' : (⟨3, ![B, S, N]⟩ : Shape).ReducesTo [2] ⟨2, ![B, S]⟩) (h : (⟨3, ![B, S, N]⟩ : Shape).Reduces [2] ⟨2, ![B, S]⟩)
    (hu : 0 < u.numel) (b : Fin B) (s : Fin S) :
    Host.reduce FloatOps.maximumf x init h' hu (ix2 b s)
      = (Finset.univ : Finset (Fin N)).fold max (init (Shape.Idx.first hu)) (fun n => x (ix3 b s n)) := by
  rw [Host.reduce_eq_fold_single FloatOps.maximumf x init h' h hu (ix2 b s)]
  have e : (x ∘ h.lift (ix2 b s)) = fun n : Fin N => x (ix3 b s n) := by
    funext n; exact congrArg x (lift3 h b s n)
  rw [e]
  rfl

/-- Over the last axis (of extent 1) of a rank-4 shape, the index above (b, s, c) is (b, s, c, 0). -/
theorem lift4 (h : (⟨4, ![B, S, 1, 1]⟩ : Shape).Reduces [3] ⟨3, ![B, S, 1]⟩) (b : Fin B) (s : Fin S) (c : Fin 1) (n : Fin 1) :
    h.lift (ix3 b s c) n = ix4 b s c n := by
  funext a; refine Fin.ext ?_
  match a with
  | ⟨0, _⟩ => rfl
  | ⟨1, _⟩ => rfl
  | ⟨2, _⟩ => rfl
  | ⟨3, _⟩ => rfl

/-- A fold over the one-element index set applies the operation once. -/
theorem fold_fin1 {α : Type} (op : α → α → α) [Std.Commutative op] [Std.Associative op] (b : α) (f : Fin 1 → α) :
    (Finset.univ : Finset (Fin 1)).fold op b f = op (f 0) b := by
  rw [show (Finset.univ : Finset (Fin 1)) = {0} from rfl, Finset.fold_singleton]

/-- An and-reduction over an axis of extent 1, from 1: the single element. -/
theorem all1_apply {u : Shape} (x : IVec ⟨4, ![B, S, 1, 1]⟩ 1) (init : IVec u 1)
    (h' : (⟨4, ![B, S, 1, 1]⟩ : Shape).ReducesTo [3] ⟨3, ![B, S, 1]⟩) (h : (⟨4, ![B, S, 1, 1]⟩ : Shape).Reduces [3] ⟨3, ![B, S, 1]⟩)
    (hu : 0 < u.numel) (hinit : init (Shape.Idx.first hu) = 1#1) (b : Fin B) (s : Fin S) :
    Host.reduce IntOp.andi x init h' hu (ix3 b s (0 : Fin 1)) = x (ix4 b s (0 : Fin 1) (0 : Fin 1)) := by
  rw [Host.reduce_eq_fold_single IntOp.andi x init h' h hu (ix3 b s (0 : Fin 1)), hinit]
  refine (fold_fin1 IntOp.andi 1#1 (fun n : Fin 1 => x (h.lift (ix3 b s (0 : Fin 1)) n))).trans ?_
  rw [lift4 h b s 0 0]
  generalize x (ix4 b s (0 : Fin 1) (0 : Fin 1)) = y
  revert y; decide

variable {α : Type}

/-- The dimension numbers of a gather along the last axis of x : [B, S, N] at indices [B, S, 1, 1], axes 0 and 1 batching. -/
abbrev tdims (B S N : Nat)
    (wf : GatherDims.WF ⟨3, ![B, S, N]⟩ ⟨4, ![B, S, 1, 1]⟩ ⟨3, ![B, S, 1]⟩ [] [2] [0, 1] [2] [0, 1] 3 ![1, 1, 1]) :
    GatherDims ⟨3, ![B, S, N]⟩ ⟨4, ![B, S, 1, 1]⟩ ⟨3, ![B, S, 1]⟩ where
  offsetDims := []
  collapsedSliceDims := [2]
  operandBatchingDims := [0, 1]
  startIndicesBatchingDims := [0, 1]
  startIndexMap := [2]
  indexVectorDim := 3
  sliceSizes := ![1, 1, 1]
  wf := wf

variable {w : Nat}
  (wf : GatherDims.WF ⟨3, ![B, S, N]⟩ ⟨4, ![B, S, 1, 1]⟩ ⟨3, ![B, S, 1]⟩ [] [2] [0, 1] [2] [0, 1] 3 ![1, 1, 1])
  (idx : IVec ⟨4, ![B, S, 1, 1]⟩ w) (b : Fin B) (s : Fin S)

/-- On the first batching axis the operand is read at the result's first coordinate. -/
theorem operand_b :
    ((tdims B S N wf).operandIdx (ix3 b s (0 : Fin 1)) idx 0).val = b.val := by
  show (tdims B S N wf).start _ idx 0 + (tdims B S N wf).batchCoord _ 0 + (tdims B S N wf).offCoord _ 0 = b.val
  have hm : (0 : Fin 3) ∈ (tdims B S N wf).operandBatchingDims := List.mem_cons.mpr (Or.inl rfl)
  rw [GatherDims.start_batching _ _ _ _ hm,
    GatherDims.offCoord_eq_zero _ _ _ (fun h => ((GatherDims.mem_sKept _ _).mp h).2 hm),
    Nat.zero_add, Nat.add_zero]
  unfold GatherDims.batchCoord
  rw [dif_pos hm]
  rfl

/-- On the second batching axis the operand is read at the result's second coordinate. -/
theorem operand_s :
    ((tdims B S N wf).operandIdx (ix3 b s (0 : Fin 1)) idx 1).val = s.val := by
  show (tdims B S N wf).start _ idx 1 + (tdims B S N wf).batchCoord _ 1 + (tdims B S N wf).offCoord _ 1 = s.val
  have hm : (1 : Fin 3) ∈ (tdims B S N wf).operandBatchingDims := List.mem_cons.mpr (Or.inr (List.mem_cons.mpr (Or.inl rfl)))
  rw [GatherDims.start_batching _ _ _ _ hm,
    GatherDims.offCoord_eq_zero _ _ _ (fun h => ((GatherDims.mem_sKept _ _).mp h).2 hm),
    Nat.zero_add, Nat.add_zero]
  unfold GatherDims.batchCoord
  rw [dif_pos hm]
  rfl

/-- The start index of result (b, s, 0) is read at (b, s, 0, 0). -/
theorem start_site :
    (tdims B S N wf).siIdx (ix3 b s (0 : Fin 1)) ⟨List.idxOf (2 : Fin 3) (tdims B S N wf).startIndexMap,
      List.idxOf_lt_length_iff.2 (List.mem_singleton.mpr rfl)⟩ = ix4 b s (0 : Fin 1) (0 : Fin 1) := by
  funext a; refine Fin.ext ?_
  match a with
  | ⟨0, _⟩ => rfl
  | ⟨1, _⟩ => rfl
  | ⟨2, _⟩ => rfl
  | ⟨3, _⟩ => rfl

/-- On the indexed axis the operand is read at the start index, signed and clamped. -/
theorem operand_n :
    ((tdims B S N wf).operandIdx (ix3 b s (0 : Fin 1)) idx 2).val
      = min (idx (ix4 b s (0 : Fin 1) (0 : Fin 1))).toInt.toNat (N - 1) := by
  show (tdims B S N wf).start _ idx 2 + (tdims B S N wf).batchCoord _ 2 + (tdims B S N wf).offCoord _ 2 = _
  rw [GatherDims.batchCoord_eq_zero _ _ _ (show (2 : Fin 3) ∉ [0, 1] by decide),
    GatherDims.offCoord_eq_zero _ _ _ (fun h => ((GatherDims.mem_sKept _ _).mp h).1 (List.mem_singleton.mpr rfl))]
  simp only [Nat.add_zero]
  unfold GatherDims.start
  rw [dif_pos (show (2 : Fin 3) ∈ (tdims B S N wf).startIndexMap from List.mem_singleton.mpr rfl), start_site]
  rfl

/-- The gather read at (b, s, 0): the operand at (b, s, i), i the start index read signed and clamped into [0, N − 1]. -/
theorem gather_apply (hN : 0 < N) (x : (⟨3, ![B, S, N]⟩ : Shape).Idx → α) :
    Host.gather (tdims B S N wf) x idx (ix3 b s (0 : Fin 1))
      = x (ix3 b s ⟨min (idx (ix4 b s (0 : Fin 1) (0 : Fin 1))).toInt.toNat (N - 1), by omega⟩) := by
  unfold Host.gather
  congr 1
  funext a
  refine Fin.ext ?_
  match a with
  | ⟨0, _⟩ => exact operand_b wf idx b s
  | ⟨1, _⟩ => exact operand_s wf idx b s
  | ⟨2, _⟩ => exact operand_n wf idx b s

end Reading

/-! ## A label in the vocabulary, as the reference's integer tests read it -/

/-- A label that is not negative does not compare below zero. -/
theorem slt_zero (L : BitVec 32) (h : 0 ≤ L.toInt) : IntOp.cmpi .slt L 0#32 = 0#1 := by
  show BitVec.ofBool (L.slt 0#32) = 0#1
  have e : L.slt 0#32 = false := by
    simp only [BitVec.slt, BitVec.toInt_zero, decide_eq_false_iff_not, not_lt]; exact h
  rw [e]; rfl

/-- A label that is not negative compares at or above zero. -/
theorem sge_zero (L : BitVec 32) (h : 0 ≤ L.toInt) : IntOp.cmpi .sge L 0#32 = 1#1 := by
  show BitVec.ofBool ((0#32 : BitVec 32).sle L) = 1#1
  have e : (0#32 : BitVec 32).sle L = true := by
    simp only [BitVec.sle, BitVec.toInt_zero, decide_eq_true_eq]; exact h
  rw [e]; rfl

/-- A label below 50257 compares at or below 50256. -/
theorem sle_top (L : BitVec 32) (h : L.toInt < 50257) : IntOp.cmpi .sle L 50256#32 = 1#1 := by
  show BitVec.ofBool (L.sle 50256#32) = 1#1
  have c : (50256#32 : BitVec 32).toInt = 50256 := by decide
  have e : L.sle 50256#32 = true := by
    simp only [BitVec.sle, c, decide_eq_true_eq]; omega
  rw [e]; rfl

/-- A word that is not negative as a signed integer is its unsigned value. -/
theorem toInt_eq_toNat (L : BitVec 32) (h0 : 0 ≤ L.toInt) : L.toInt = (L.toNat : Int) := by
  have hlt := L.isLt
  rw [BitVec.toInt_eq_toNat_cond] at h0 ⊢
  by_cases c : 2 * L.toNat < 2 ^ 32
  · rw [if_pos c]
  · rw [if_neg c] at h0; omega

/-- A label in the vocabulary, read signed and clamped into [0, 50256], is its own value. -/
theorem clamp_id (L : BitVec 32) (h0 : 0 ≤ L.toInt) (h1 : L.toInt < 50257) :
    min L.toInt.toNat (50257 - 1) = L.toNat := by
  rw [toInt_eq_toNat L h0] at h1 ⊢
  simp only [Int.toNat_natCast]
  omega

/-- A label in the vocabulary is below 50257 as an unsigned value. -/
theorem toNat_lt (L : BitVec 32) (h0 : 0 ≤ L.toInt) (h1 : L.toInt < 50257) : L.toNat < 50257 := by
  rw [toInt_eq_toNat L h0] at h1; omega

/-! ## Row (b, s) of the reference -/

section Row

variable (x0 : (⟨S2x2048x1024, .f32⟩ : BufTy).Contents (Elt Ideal)) (x1 : (⟨S50257x1024, .f32⟩ : BufTy).Contents (Elt Ideal))
  (x2 : (⟨S50257, .f32⟩ : BufTy).Contents (Elt Ideal)) (x3 : (⟨S2x2048, .i32⟩ : BufTy).Contents (Elt Ideal))

/-- Row s of the 2047 scored rows, as one of the 2048 positions. -/
abbrev pos (s : Fin 2047) : Fin 2048 := ⟨s.val, by omega⟩

/-- The extended real that the bit pattern of −∞ denotes. -/
theorem ofBits_neg_inf : FloatOps.ofBits (F := Ideal) .f32 0xFF800000#32 = (⊥ : EReal) := by
  show Ideal.ofBits .f32 0xFF800000#32 = ⊥
  simp [Ideal.ofBits, Ideal.ieee]

/-- The logit of row (b, s) at column n is the real number xr. -/
theorem logit (hfin : Finite x0 x1 x2) (b : Fin 2) (s : Fin 2047) (n : Fin 50257) :
    val_main_v5 (F := Ideal) x0 x1 x2 (ix3 b s n) = ((xr x0 x1 x2 b (pos s) n.val : ℝ) : EReal) := by
  rw [val_main_v5_apply, val_main_v2_apply, val_main_v4_apply, val_main_v3_apply, ← logit_coe x0 x1 x2 hfin b (pos s) n]
  have e0 : ∀ k : Fin 1024, idx_main_v0 (lidx_main_v2 (ix3 b s n) k) = ix3 b (pos s) k := fun k =>
    funext fun a => Fin.ext (by match a with | ⟨0, _⟩ => rfl | ⟨1, _⟩ => rfl | ⟨2, _⟩ => rfl)
  have e1 : ∀ k : Fin 1024, ridx_main_v2 (ix3 b s n) k = ix2 n k := fun k =>
    funext fun a => Fin.ext (by match a with | ⟨0, _⟩ => rfl | ⟨1, _⟩ => rfl)
  have e2 : idx_main_v3 (idx_main_v4 (ix3 b s n)) = ix1 n :=
    funext fun a => Fin.ext (by match a with | ⟨0, _⟩ => rfl)
  simp only [val_main_v0_apply, e0, e1, e2]
  rfl

/-- The maximum the reference subtracts in row (b, s) is the running maximum after all 99 tiles. -/
theorem rowmax (hfin : Finite x0 x1 x2) (b : Fin 2) (s : Fin 2047) :
    val_main_call0_v2 (F := Ideal) x0 x1 x2 (ix2 b s) = ((runMax (xr x0 x1 x2 b (pos s)) 99 : ℝ) : EReal) := by
  rw [val_main_call0_v2_apply, val_main_call0_v1_apply, val_main_call0_cst_0_apply, ofBits_neg_inf]
  show max (⊥ : EReal) (val_main_call0_v0 (F := Ideal) x0 x1 x2 (ix2 b s)) = _
  rw [max_eq_right bot_le]
  unfold val_main_call0_v0
  rw [rowmax_apply (val_main_v5 (F := Ideal) x0 x1 x2) (val_main_call0_cst (F := Ideal)) _ (by decide) _ b s,
    val_main_call0_cst_apply, ofBits_neg_inf, ← ref_max (xr x0 x1 x2 b (pos s))]
  exact congrArg (fun f => Finset.fold max (⊥ : EReal) f (Finset.univ : Finset (Fin 50257)))
    (funext fun n => logit x0 x1 x2 hfin b s n)

/-- The entry the reference exponentiates: the logit less the row's maximum. -/
theorem shifted (hfin : Finite x0 x1 x2) (b : Fin 2) (s : Fin 2047) (n : Fin 50257) :
    val_main_call0_v5 (F := Ideal) x0 x1 x2 (ix3 b s n)
      = ((xr x0 x1 x2 b (pos s) n.val : ℝ) : EReal) - ((runMax (xr x0 x1 x2 b (pos s)) 99 : ℝ) : EReal) := by
  have e : idx_main_call0_v3 (idx_main_call0_v4 (ix3 b s n)) = ix2 b s :=
    funext fun a => Fin.ext (by match a with | ⟨0, _⟩ => rfl | ⟨1, _⟩ => rfl)
  rw [val_main_call0_v5_apply, val_main_call0_v4_apply, val_main_call0_v3_apply, e, logit x0 x1 x2 hfin b s n,
    rowmax x0 x1 x2 hfin b s]
  rfl

/-- The sum of exponentials of row (b, s) is the running sum after all 99 tiles. -/
theorem rowsum (hfin : Finite x0 x1 x2) (b : Fin 2) (s : Fin 2047) :
    val_main_call0_v7 (F := Ideal) x0 x1 x2 (ix2 b s) = ((runSum (xr x0 x1 x2 b (pos s)) 99 : ℝ) : EReal) := by
  rw [val_main_call0_v7_apply, val_main_call0_cst_1_apply]
  have h0 : FloatOps.ofBits (F := Ideal) .f32 0x00000000#32 = (0 : EReal) := Ideal.ofBits_zero_f32
  rw [h0, zero_add, ← ref_sum (xr x0 x1 x2 b (pos s))]
  refine Finset.sum_congr rfl fun n _ => ?_
  have e : idx_main_call0_v7 (ix2 b s) n = ix3 b s n :=
    funext fun a => Fin.ext (by match a with | ⟨0, _⟩ => rfl | ⟨1, _⟩ => rfl | ⟨2, _⟩ => rfl)
  rw [e, val_main_call0_v6_apply, shifted x0 x1 x2 hfin b s n]
  rfl

/-- The logarithm the reference subtracts in row (b, s). -/
theorem logsum (hfin : Finite x0 x1 x2) (b : Fin 2) (s : Fin 2047) (n : Fin 50257) :
    val_main_call0_v10 (F := Ideal) x0 x1 x2 (ix3 b s n) = Ideal.log ((runSum (xr x0 x1 x2 b (pos s)) 99 : ℝ) : EReal) := by
  have e : idx_main_call0_v8 (idx_main_call0_v10 (ix3 b s n)) = ix2 b s :=
    funext fun a => Fin.ext (by match a with | ⟨0, _⟩ => rfl | ⟨1, _⟩ => rfl)
  rw [val_main_call0_v10_apply, val_main_call0_v9_apply, val_main_call0_v8_apply, e, rowsum x0 x1 x2 hfin b s]
  rfl

/-- The log-softmax entry of row (b, s) at column n. -/
theorem logsoftmax (hfin : Finite x0 x1 x2) (b : Fin 2) (s : Fin 2047) (n : Fin 50257) :
    val_main_v6 (F := Ideal) x0 x1 x2 (ix3 b s n)
      = (((xr x0 x1 x2 b (pos s) n.val : ℝ) : EReal) - ((runMax (xr x0 x1 x2 b (pos s)) 99 : ℝ) : EReal))
        - Ideal.log ((runSum (xr x0 x1 x2 b (pos s)) 99 : ℝ) : EReal) := by
  rw [val_main_v6_apply, shifted x0 x1 x2 hfin b s n, logsum x0 x1 x2 hfin b s n]
  rfl

/-- The label word the reference carries to row (b, s): the label of position s + 1. -/
theorem lab7 (b : Fin 2) (s : Fin 2047) :
    val_main_v7 (F := Ideal) x3 (ix3 b s (0 : Fin 1)) = x3 (ix2 b ⟨s.val + 1, by omega⟩) := by
  rw [val_main_v7_apply, val_main_v1_apply]
  exact congrArg x3 (funext fun a => Fin.ext (by
    match a with
    | ⟨0, _⟩ => rfl
    | ⟨1, _⟩ => exact Nat.add_comm 1 s.val))

/-- A label in the vocabulary is not wrapped. -/
theorem lab4 (hlab : LabelsOk x3) (b : Fin 2) (s : Fin 2047) :
    val_main_call1_v4 (F := Ideal) x3 (ix3 b s (0 : Fin 1)) = x3 (ix2 b ⟨s.val + 1, by omega⟩) := by
  rw [val_main_call1_v4_apply, val_main_call1_v1_apply, val_main_call1_v0_apply, val_main_call1_c_apply, lab7 x3 b s,
    slt_zero _ (hlab b s).1]
  exact select_zero _ _

/-- The start index of row (b, s) is its label. -/
theorem lab5 (hlab : LabelsOk x3) (b : Fin 2) (s : Fin 2047) :
    val_main_call1_v5 (F := Ideal) x3 (ix4 b s (0 : Fin 1) (0 : Fin 1)) = x3 (ix2 b ⟨s.val + 1, by omega⟩) := by
  have e : idx_main_call1_v5 (ix4 b s (0 : Fin 1) (0 : Fin 1)) = ix3 b s (0 : Fin 1) := funext fun a => Fin.ext (by
    have hs := s.isLt
    match a with
    | ⟨0, _⟩ => show (((b.val * 2047 + s.val) * 1 + 0) * 1 + 0) / 2047 = b.val; omega
    | ⟨1, _⟩ => show (((b.val * 2047 + s.val) * 1 + 0) * 1 + 0) / 1 % 2047 = s.val; omega
    | ⟨2, _⟩ => rfl)
  rw [val_main_call1_v5_apply, e, lab4 x3 hlab b s]

/-- A label in the vocabulary passes the reference's range test. -/
theorem inrange (hlab : LabelsOk x3) (b : Fin 2) (s : Fin 2047) :
    val_main_call1_v12 (F := Ideal) x3 (ix3 b s (0 : Fin 1)) = 1#1 := by
  unfold val_main_call1_v12
  rw [all1_apply (val_main_call1_v11 (F := Ideal) x3) (val_main_call1_c_3 (F := Ideal)) _ (by decide) _
    (val_main_call1_c_3_apply _) b s]
  rw [val_main_call1_v11_apply, val_main_call1_v7_apply, val_main_call1_v10_apply, val_main_call1_v6_apply,
    val_main_call1_c_2_apply, val_main_call1_v9_apply, val_main_call1_v8_apply, val_main_call1_c_1_apply,
    lab5 x3 hlab b s, sge_zero _ (hlab b s).1, sle_top _ (hlab b s).2]
  rfl

/-- The row's label is a vocabulary column. -/
theorem lab_lt (hlab : LabelsOk x3) (b : Fin 2) (s : Fin 2047) : lab x3 b s < 50257 :=
  toNat_lt _ (hlab b s).1 (hlab b s).2

/-- The entry the reference takes in row (b, s) is the log-softmax entry at the row's label. -/
theorem taken (hlab : LabelsOk x3) (b : Fin 2) (s : Fin 2047) :
    val_main_call1_v13 (F := Ideal) x0 x1 x2 x3 (ix3 b s (0 : Fin 1))
      = val_main_v6 (F := Ideal) x0 x1 x2 (ix3 b s ⟨lab x3 b s, lab_lt x3 hlab b s⟩) := by
  unfold val_main_call1_v13
  have hg := gather_apply (B := 2) (S := 2047) (N := 50257) gather_S2x2047x50257_S2x2047x1x1_S2x2047x1_n_2_01_01_2_3_111_wf
    (val_main_call1_v5 (F := Ideal) x3) b s (by decide) (val_main_v6 (F := Ideal) x0 x1 x2)
  refine hg.trans ?_
  have hn : min (val_main_call1_v5 (F := Ideal) x3 (ix4 b s (0 : Fin 1) (0 : Fin 1))).toInt.toNat (50257 - 1) = lab x3 b s := by
    rw [lab5 x3 hlab b s]; exact clamp_id _ (hlab b s).1 (hlab b s).2
  exact congrArg (fun n : Fin 50257 => val_main_v6 (F := Ideal) x0 x1 x2 (ix3 b s n)) (Fin.ext hn)

/-- Row (b, s) of the negated array is the row's loss. -/
theorem row_eq (hfin : Finite x0 x1 x2) (hlab : LabelsOk x3) (b : Fin 2) (s : Fin 2047) :
    val_main_v10 (F := Ideal) x0 x1 x2 x3 (ix2 b s) = nllAt x0 x1 x2 x3 b s := by
  have e : idx_main_v9 (ix2 b s) = ix3 b s (0 : Fin 1) := funext fun a => Fin.ext (by
    have hs := s.isLt
    match a with
    | ⟨0, _⟩ => show (b.val * 2047 + s.val) / 2047 = b.val; omega
    | ⟨1, _⟩ => show (b.val * 2047 + s.val) / 1 % 2047 = s.val; omega
    | ⟨2, _⟩ => rfl)
  rw [val_main_v10_apply, val_main_v9_apply, e, val_main_v8_apply, inrange x3 hlab b s, select_one,
    taken x0 x1 x2 x3 hlab b s, logsoftmax x0 x1 x2 hfin b s]
  exact ref_nll (xr x0 x1 x2 b (pos s)) (lab x3 b s)

end Row

/-- The reference's last stage, as a function of the four argument arrays, is the mean of the rows' losses. -/
theorem val_eq (x0 : (⟨S2x2048x1024, .f32⟩ : BufTy).Contents (Elt Ideal)) (x1 : (⟨S50257x1024, .f32⟩ : BufTy).Contents (Elt Ideal))
    (x2 : (⟨S50257, .f32⟩ : BufTy).Contents (Elt Ideal)) (x3 : (⟨S2x2048, .i32⟩ : BufTy).Contents (Elt Ideal))
    (hfin : Finite x0 x1 x2) (hlab : LabelsOk x3) :
    Cert.ReferenceIdeal.Read.val_main_v12 (F := Ideal) x0 x1 x2 x3
      = meanTail Facts₀.reducesTo_S2x2047_S_d0_1 Facts₀.h_S_ (nll x0 x1 x2 x3) := by
  have key : val_main_v10 (F := Ideal) x0 x1 x2 x3 = nll x0 x1 x2 x3 := by
    funext j
    obtain ⟨b, s, rfl⟩ : ∃ b s, j = ix2 b s := ⟨j 0, j 1, eq_ix2 j⟩
    exact row_eq x0 x1 x2 x3 hfin hlab b s
  unfold Cert.ReferenceIdeal.Read.val_main_v12 Cert.ReferenceIdeal.Read.val_main_v11 meanTail
  rw [key]
  rfl

end Cert.Lse.Ref

end
-- ==== Proof.KArgs.lean ====
/-
  Names, at their literal types, for what the kernel's program holds when its one region is entered: the four
  arguments, the three staged arrays (embeddings padded by one zero row per batch element, weights and bias padded by
  431 zero rows / entries up to 99 tiles of 512), the target logits computed before the region, and the blocks the
  three input windows stage at a grid point.
-/
import proofs.«430012_j79843442033222_1_alg».proof.Proof.Gen.KernelIdeal.Frame.Runs
import proofs.«430012_j79843442033222_1_alg».proof.Proof.Spec

noncomputable section

namespace Cert.Lse.K

open Idealize.ShloMosaic Idealize.ShloMosaic.TcCoe Idealize.SL.Sem Cert.KernelIdeal Cert.KernelIdeal.Gen

variable (m : (ℓ : Loc nD τ sig) → Buf (Elt Ideal) ℓ)

abbrev argE (c : Dev nD) : FVec Ideal S2x2048x1024 .f32 := m ((c : Thread nD τ).loc main_arg0)
abbrev argW (c : Dev nD) : FVec Ideal S50257x1024 .f32 := m ((c : Thread nD τ).loc main_arg1)
abbrev argB (c : Dev nD) : FVec Ideal S50257 .f32 := m ((c : Thread nD τ).loc main_arg2)
abbrev argL (c : Dev nD) : IVec S2x2048 32 := m ((c : Thread nD τ).loc main_arg3)

abbrev embPad (c : Dev nD) : Vec Ideal S2x2048x1024 .bf16 := V m c main_v20
abbrev wPad (c : Dev nD) : Vec Ideal S50688x1024 .bf16 := V m c main_v22
abbrev bPad (c : Dev nD) : Vec Ideal S1x50688 .f32 := V m c main_v24
abbrev target (c : Dev nD) : Vec Ideal S2x2047 .f32 := V m c main_v18

abbrev blk0 (c : Dev nD) (t : Fin cfg0.N) : Vec Ideal S1x2048x1024 .bf16 := iblk m c 0 t
abbrev blk1 (c : Dev nD) (t : Fin cfg0.N) : Vec Ideal S512x1024 .bf16 := iblk m c 1 t
abbrev blk2 (c : Dev nD) (t : Fin cfg0.N) : Vec Ideal S1x512 .f32 := iblk m c 2 t

end Cert.Lse.K

end
-- ==== Proof.HostHead.lean ====
/-
  The three staged arrays and the windows' blocks, one entry at a time.

  The embeddings are cut to positions 0…2046 and padded back to 2048 rows with a zero row; the weights and the bias are
  padded with zeros from 50257 to 50688 = 99·512 rows / entries; the change of float format is the identity on exact
  values. Grid point t = b·99 + v stages batch element b of the embeddings whole, and rows / entries v·512 … v·512+511 of
  the padded weights and bias.
-/
import proofs.«430012_j79843442033222_1_alg».proof.Proof.KArgs
import Idealize.ShloMosaic.Lib.ValueIdx
import Idealize.ShloMosaic.Lib.ValueLayout
import Idealize.ShloMosaic.Lib.Pipeline.Value
import Idealize.ShloMosaic.Lib.StableHlo.Run
import Idealize.ShloMosaic.Lib.KernelVsHost

noncomputable section

namespace Cert.Lse.K

open Idealize.ShloMosaic Idealize.ShloMosaic.TcCoe Idealize.ShloMosaic.ValueIdx Idealize.SL.Sem Cert.KernelIdeal Cert.KernelIdeal.Gen
open Idealize.ShloMosaic.StableHlo

variable (m : (ℓ : Loc nD τ sig) → Buf (Elt Ideal) ℓ)

/-- The padding value: the integer constant 0 converted to a float is the real number 0. -/
private theorem padValue (i : S_.Idx) :
    (sitofp (F := Ideal) .f32 (constantI S_ 32 0#32) : FVec Ideal S_ .f32) i = (0 : EReal) := by
  show (((0#32 : BitVec 32).toInt : ℝ) : EReal) = 0
  have h0 : (0#32 : BitVec 32).toInt = 0 := by decide
  rw [h0, Int.cast_zero, EReal.coe_zero]

/-- The staged embeddings at an entry: rows 0…2046 of a batch element are the argument's, row 2047 is 0. -/
private theorem padE_apply (x : FVec Ideal S2x2048x1024 .f32) (b : Fin 2) (r : Fin 2048) (k : Fin 1024) :
    (truncf .bf16
        (pad (s := S2x2047x1024) S2x2048x1024 ![0, 0, 0] ![0, 1, 0] ![0, 0, 0]
          (extractStridedSlice S2x2047x1024 ![0, 0, 0] x slices_S2x2048x1024_S2x2047x1024_0_0_0)
          (sitofp (F := Ideal) .f32 (constantI S_ 32 0#32))
          pads_S2x2047x1024_S2x2048x1024_000_010_000 h_S_ : FVec Ideal S2x2048x1024 .f32)
        bitsLt_bf16_f32 : FVec Ideal S2x2048x1024 .bf16) (ix3 b r k)
      = if r.val < 2047 then x (ix3 b r k) else (0 : EReal) := by
  rw [truncf_apply]
  by_cases hr : r.val < 2047
  · rw [if_pos hr]
    refine (pad_apply_of_inside _ _ _ _ _ _ _ (ix3 b r k) (ix3 b ⟨r.val, hr⟩ k) ?_).trans ?_
    · intro a
      match a with
      | ⟨0, _⟩ => show b.val = 0 + b.val * (0 + 1); omega
      | ⟨1, _⟩ => show r.val = 0 + r.val * (0 + 1); omega
      | ⟨2, _⟩ => show k.val = 0 + k.val * (0 + 1); omega
    · refine extractStridedSlice_apply _ _ _ _ (ix3 b r k) ?_
      intro a
      match a with
      | ⟨0, _⟩ => show b.val = 0 + b.val; omega
      | ⟨1, _⟩ => show r.val = 0 + r.val; omega
      | ⟨2, _⟩ => show k.val = 0 + k.val; omega
  · rw [if_neg hr]
    refine (pad_apply_of_not_inside _ _ _ _ _ _ _ (ix3 b r k) (1 : Fin 3) ?_).trans (padValue _)
    rintro ⟨-, -, h3⟩
    have h3' : (r.val - 0) / (0 + 1) < 2047 := h3
    simp only [Nat.sub_zero, Nat.zero_add, Nat.div_one] at h3'
    exact hr h3'

/-- The staged weights at an entry: rows below 50257 are the argument's, the rest are 0. -/
private theorem padW_apply (x : FVec Ideal S50257x1024 .f32) (n : Fin 50688) (k : Fin 1024) :
    (truncf .bf16
        (pad (s := S50257x1024) S50688x1024 ![0, 0] ![431, 0] ![0, 0] x
          (sitofp (F := Ideal) .f32 (constantI S_ 32 0#32))
          pads_S50257x1024_S50688x1024_04310_000 h_S_ : FVec Ideal S50688x1024 .f32)
        bitsLt_bf16_f32 : FVec Ideal S50688x1024 .bf16) (ix2 n k)
      = if h : n.val < 50257 then x (ix2 ⟨n.val, h⟩ k) else (0 : EReal) := by
  rw [truncf_apply]
  by_cases hn : n.val < 50257
  · rw [dif_pos hn]
    refine pad_apply_of_inside _ _ _ _ _ _ _ (ix2 n k) (ix2 ⟨n.val, hn⟩ k) ?_
    intro a
    match a with
    | ⟨0, _⟩ => show n.val = 0 + n.val * (0 + 1); omega
    | ⟨1, _⟩ => show k.val = 0 + k.val * (0 + 1); omega
  · rw [dif_neg hn]
    refine (pad_apply_of_not_inside _ _ _ _ _ _ _ (ix2 n k) (0 : Fin 2) ?_).trans (padValue _)
    rintro ⟨-, -, h3⟩
    have h3' : (n.val - 0) / (0 + 1) < 50257 := h3
    simp only [Nat.sub_zero, Nat.zero_add, Nat.div_one] at h3'
    exact hn h3'

/-- The staged bias at an entry: entries below 50257 are the argument's, the rest are 0. -/
private theorem padB_apply (x : FVec Ideal S50257 .f32) (n : Fin 50688) :
    (shapeCast S1x50688
        (pad (s := S50257) S50688 ![0] ![431] ![0] x
          (sitofp (F := Ideal) .f32 (constantI S_ 32 0#32))
          pads_S50257_S50688_04310 h_S_ : FVec Ideal S50688 .f32)
        shapeCasts_S50688_S1x50688 : FVec Ideal S1x50688 .f32) (ix2 0 n)
      = if h : n.val < 50257 then x (ix1 ⟨n.val, h⟩) else (0 : EReal) := by
  refine (shapeCast_apply _ _ (ix2 0 n) (ix1 n) ?_).trans ?_
  · rw [Shape.rowMajor_val_one, Shape.rowMajor_val_two]
    show n.val = (0 : Fin 1).val * 50688 + n.val
    simp
  by_cases hn : n.val < 50257
  · rw [dif_pos hn]
    refine pad_apply_of_inside _ _ _ _ _ _ _ (ix1 n) (ix1 ⟨n.val, hn⟩) ?_
    intro a
    match a with
    | ⟨0, _⟩ => show n.val = 0 + n.val * (0 + 1); omega
  · rw [dif_neg hn]
    refine (pad_apply_of_not_inside _ _ _ _ _ _ _ (ix1 n) (0 : Fin 1) ?_).trans (padValue _)
    rintro ⟨-, -, h3⟩
    have h3' : (n.val - 0) / (0 + 1) < 50257 := h3
    simp only [Nat.sub_zero, Nat.zero_add, Nat.div_one] at h3'
    exact hn h3'

/-- What the host operations before the region leave in the staged embeddings' buffer. -/
private theorem embPad_eq (c : Dev nD) :
    (V m c main_v20 : S2x2048x1024.Idx → EReal) =
      (truncf .bf16
        (pad (s := S2x2047x1024) S2x2048x1024 ![0, 0, 0] ![0, 1, 0] ![0, 0, 0]
          (extractStridedSlice S2x2047x1024 ![0, 0, 0] (argE m c) slices_S2x2048x1024_S2x2047x1024_0_0_0)
          (sitofp (F := Ideal) .f32 (constantI S_ 32 0#32))
          pads_S2x2047x1024_S2x2048x1024_000_010_000 h_S_ : FVec Ideal S2x2048x1024 .f32)
        bitsLt_bf16_f32 : FVec Ideal S2x2048x1024 .bf16) := by
  dsimp only [Gen.V, Gen.V0]
  simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
  after_results
  rfl

/-- What they leave in the staged weights' buffer. -/
private theorem wPad_eq (c : Dev nD) :
    (V m c main_v22 : S50688x1024.Idx → EReal) =
      (truncf .bf16
        (pad (s := S50257x1024) S50688x1024 ![0, 0] ![431, 0] ![0, 0] (argW m c)
          (sitofp (F := Ideal) .f32 (constantI S_ 32 0#32))
          pads_S50257x1024_S50688x1024_04310_000 h_S_ : FVec Ideal S50688x1024 .f32)
        bitsLt_bf16_f32 : FVec Ideal S50688x1024 .bf16) := by
  dsimp only [Gen.V, Gen.V0]
  simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
  after_results
  rfl

/-- What they leave in the staged bias's buffer. -/
private theorem bPad_eq (c : Dev nD) :
    (V m c main_v24 : S1x50688.Idx → EReal) =
      (shapeCast S1x50688
        (pad (s := S50257) S50688 ![0] ![431] ![0] (argB m c)
          (sitofp (F := Ideal) .f32 (constantI S_ 32 0#32))
          pads_S50257_S50688_04310 h_S_ : FVec Ideal S50688 .f32)
        shapeCasts_S50688_S1x50688 : FVec Ideal S1x50688 .f32) := by
  dsimp only [Gen.V, Gen.V0]
  simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
  after_results
  rfl

theorem embPad_apply (c : Dev nD) (b : Fin 2) (r : Fin 2048) (k : Fin 1024) :
    embPad m c (ix3 b r k) = if r.val < 2047 then argE m c (ix3 b r k) else 0 :=
  (congrFun (embPad_eq m c) (ix3 b r k)).trans (padE_apply (argE m c) b r k)

theorem wPad_apply (c : Dev nD) (n : Fin 50688) (k : Fin 1024) :
    wPad m c (ix2 n k) = if h : n.val < 50257 then argW m c (ix2 ⟨n.val, h⟩ k) else 0 :=
  (congrFun (wPad_eq m c) (ix2 n k)).trans (padW_apply (argW m c) n k)

theorem bPad_apply (c : Dev nD) (n : Fin 50688) :
    bPad m c (ix2 0 n) = if h : n.val < 50257 then argB m c (ix1 ⟨n.val, h⟩) else 0 :=
  (congrFun (bPad_eq m c) (ix2 0 n)).trans (padB_apply (argB m c) n)

/-- The printed index maps and the tile coordinate, decided once over the grid: grid point t stages batch element
    t / 99 of the embeddings and tile t % 99 of the weights and the bias. -/
private theorem idx_facts : ∀ t : Fin cfg0.N,
    win0_0.index t (0 : Fin 3) = t.val / 99 ∧ win0_0.index t (1 : Fin 3) = 0 ∧ win0_0.index t (2 : Fin 3) = 0
    ∧ win0_1.index t (0 : Fin 2) = t.val % 99 ∧ win0_1.index t (1 : Fin 2) = 0
    ∧ win0_2.index t (0 : Fin 2) = 0 ∧ win0_2.index t (1 : Fin 2) = t.val % 99
    ∧ ((grid0.coords t) 1).val = t.val % 99 :=
  (by decide +kernel : ∀ t : Fin grid0.N, _)

/-- The tile coordinate of grid point t = b·99 + v is v. -/
theorem coords1 (t : Fin cfg0.N) (b : Fin 2) (v : Fin 99) (ht : t.val = b.val * 99 + v.val) :
    ((grid0.coords t) 1).val = v.val := by
  obtain ⟨-, -, -, -, -, -, -, e⟩ := idx_facts t
  omega

theorem blk0_apply (c : Dev nD) (t : Fin cfg0.N) (b : Fin 2) (v : Fin 99) (ht : t.val = b.val * 99 + v.val) (r : Fin 2048) (k : Fin 1024) :
    blk0 m c t (ix3 0 r k) = embPad m c (ix3 b r k) := by
  obtain ⟨e0, e1, e2, -, -, -, -, -⟩ := idx_facts t
  have h : ((cfg0.win 0).blk t).view.emb (ix3 0 r k) = ix3 b r k := by
    funext a; apply Fin.ext
    match a with
    | ⟨0, _⟩ => show win0_0.index t (0 : Fin 3) * 1 + 1 * 0 = b.val; omega
    | ⟨1, _⟩ => show win0_0.index t (1 : Fin 3) * 2048 + 1 * r.val = r.val; omega
    | ⟨2, _⟩ => show win0_0.index t (2 : Fin 3) * 1024 + 1 * k.val = k.val; omega
  show V m c main_v20 (((cfg0.win 0).blk t).view.emb (ix3 0 r k)) = _
  rw [h]

theorem blk1_apply (c : Dev nD) (t : Fin cfg0.N) (b : Fin 2) (v : Fin 99) (ht : t.val = b.val * 99 + v.val) (j : Fin 512) (k : Fin 1024) :
    blk1 m c t (ix2 j k) = wPad m c (ix2 ⟨v.val * 512 + j.val, by omega⟩ k) := by
  obtain ⟨-, -, -, e0, e1, -, -, -⟩ := idx_facts t
  have h : ((cfg0.win 1).blk t).view.emb (ix2 j k) = ix2 ⟨v.val * 512 + j.val, by omega⟩ k := by
    funext a; apply Fin.ext
    match a with
    | ⟨0, _⟩ => show win0_1.index t (0 : Fin 2) * 512 + 1 * j.val = v.val * 512 + j.val; omega
    | ⟨1, _⟩ => show win0_1.index t (1 : Fin 2) * 1024 + 1 * k.val = k.val; omega
  show V m c main_v22 (((cfg0.win 1).blk t).view.emb (ix2 j k)) = _
  rw [h]

theorem blk2_apply (c : Dev nD) (t : Fin cfg0.N) (b : Fin 2) (v : Fin 99) (ht : t.val = b.val * 99 + v.val) (j : Fin 512) :
    blk2 m c t (ix2 0 j) = bPad m c (ix2 0 ⟨v.val * 512 + j.val, by omega⟩) := by
  obtain ⟨-, -, -, -, -, e0, e1, -⟩ := idx_facts t
  have h : ((cfg0.win 2).blk t).view.emb (ix2 0 j) = ix2 0 ⟨v.val * 512 + j.val, by omega⟩ := by
    funext a; apply Fin.ext
    match a with
    | ⟨0, _⟩ => show win0_2.index t (0 : Fin 2) * 1 + 1 * 0 = 0; omega
    | ⟨1, _⟩ => show win0_2.index t (1 : Fin 2) * 512 + 1 * j.val = v.val * 512 + j.val; omega
  show V m c main_v24 (((cfg0.win 2).blk t).view.emb (ix2 0 j)) = _
  rw [h]

end Cert.Lse.K

end
-- ==== Proof.LibColumns.lean ====
/-
  Column layouts read at an index.

  The three keepdims forms of a column: a vector of length a cast to an a × 1 column, such a column cast back
  to the vector, and a column broadcast along a new trailing extent b. Each reads the operand at the row; the unit
  coordinate carries no information. General in a and b.
-/
import Idealize.ShloMosaic.Lib.ValueIdx
import Idealize.ShloMosaic.Lib.ValueLayout
import Idealize.ShloMosaic.Lib.Pipeline.Value

noncomputable section

namespace Idealize.ShloMosaic.Columns

open Idealize.ShloMosaic Idealize.ShloMosaic.ValueIdx

variable {α : Type}

/-- A vector cast to a column reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A column cast to a vector reads, at i, the column at (i, 0). -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- A column broadcast to b columns reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.Columns

end
-- ==== Proof.LibDotNT.lean ====
/-
  A matrix times a transposed matrix, read at an index.

  For the dimension numbers of an M × K by N × K product that contracts the LAST axis of both operands (no batch
  axis: x · Wᵀ with W stored row by row), the sum over the contraction index that a matmul into a zero accumulator
  or a dot_general denotes at the ideal values is, at row p and column q, the sum over k of l (p, k) · r (q, k).
  General in M, K, N; a program's own record of these dimension numbers is this one up to its proof field.
-/
import Idealize.ShloMosaic.PureOps.Ideal
import Idealize.ShloMosaic.PureOps.Ideal.Laws
import Idealize.ShloMosaic.Lib.ValueIdx

noncomputable section

namespace Idealize.ShloMosaic.DotNT

open Idealize.ShloMosaic Idealize.ShloMosaic.ValueIdx

variable {M K N : Nat}

/-- The dimension numbers: contract axis 1 of both operands; the result's axes are the left rows, then the right rows. -/
abbrev dims (w : DotDims.WF (⟨2, ![M, K]⟩ : Shape) ⟨2, ![N, K]⟩ ⟨2, ![M, N]⟩ [1] [1] [0] [0] [] []) :
    DotDims (⟨2, ![M, K]⟩ : Shape) ⟨2, ![N, K]⟩ ⟨2, ![M, N]⟩ := ⟨[1], [1], [0], [0], [], [], w⟩

variable (w : DotDims.WF (⟨2, ![M, K]⟩ : Shape) ⟨2, ![N, K]⟩ ⟨2, ![M, N]⟩ [1] [1] [0] [0] [] [])

theorem contr_rank : (dims w).contr.rank = 1 := rfl
theorem contr_size : (dims w).contr.size ⟨0, by rw [contr_rank]; exact Nat.one_pos⟩ = K := rfl

/-- The contraction index is its one coordinate, a column of either operand. -/
abbrev kEquiv : (dims w).contr.Idx ≃ Fin K := contrEquiv1 (dims w) K (contr_rank w) (contr_size w)

/-- The left operand is read at (row of the result, k). -/
theorem lhsIdx_eq (j : (⟨2, ![M, N]⟩ : Shape).Idx) (k : Fin K) :
    (dims w).lhsIdx j ((kEquiv w).symm k) = ix2 (j 0) k := by
  funext a
  apply Fin.ext
  match a with
  | ⟨0, _⟩ => rfl
  | ⟨1, _⟩ =>
    exact ((dims w).lhsIdx_val_of_single (cl := 1) rfl j _).trans
      (contrEquiv1_symm_val (dims w) K (contr_rank w) (contr_size w) k)

/-- The right operand is read at (column of the result, k): its rows are the result's columns. -/
theorem rhsIdx_eq (j : (⟨2, ![M, N]⟩ : Shape).Idx) (k : Fin K) :
    (dims w).rhsIdx j ((kEquiv w).symm k) = ix2 (j 1) k := by
  funext a
  apply Fin.ext
  match a with
  | ⟨0, _⟩ => rfl
  | ⟨1, _⟩ =>
    exact ((dims w).rhsIdx_val_of_single (cr := 1) rfl j _).trans
      (contrEquiv1_symm_val (dims w) K (contr_rank w) (contr_size w) k)

/-- The contraction sum, over the shared column index. -/
theorem sum_eq (l : (⟨2, ![M, K]⟩ : Shape).Idx → EReal) (r : (⟨2, ![N, K]⟩ : Shape).Idx → EReal) (j : (⟨2, ![M, N]⟩ : Shape).Idx) :
    (∑ kk : (dims w).contr.Idx, l ((dims w).lhsIdx j kk) * r ((dims w).rhsIdx j kk))
      = ∑ k : Fin K, l (ix2 (j 0) k) * r (ix2 (j 1) k) := by
  rw [← Equiv.sum_comp (kEquiv w).symm]
  exact Finset.sum_congr rfl fun k _ =>
    congrArg₂ (· * ·) (congrArg l (lhsIdx_eq w j k)) (congrArg r (rhsIdx_eq w j k))

variable {φ₁ φ₂ : FTy}

/-- A kernel's matmul into the zero accumulator, at (p, q). -/
theorem matmul_zero_apply (prec : Option ContractPrecision) (l : FVec Ideal ⟨2, ![M, K]⟩ φ₁) (r : FVec Ideal ⟨2, ![N, K]⟩ φ₂)
    (p : Fin M) (q : Fin N) :
    matmul (dims w) prec l r (constant ⟨2, ![M, N]⟩ .f32 0x00000000#32) (ix2 p q)
      = ∑ k : Fin K, l (ix2 p k) * r (ix2 q k) :=
  (Ideal.matmul_constant_zero_apply (dims w) prec l r (ix2 p q)).trans (sum_eq w l r (ix2 p q))

/-- The host's dot_general, at (p, q). -/
theorem dotGeneral_apply (prec : Option ContractPrecision) (l : FVec Ideal ⟨2, ![M, K]⟩ φ₁) (r : FVec Ideal ⟨2, ![N, K]⟩ φ₂)
    (p : Fin M) (q : Fin N) :
    Host.dotGeneral (dims w) prec l r (ix2 p q) = ∑ k : Fin K, l (ix2 p k) * r (ix2 q k) :=
  (Ideal.dotGeneral_apply (dims w) prec _ l r (ix2 p q)).trans (sum_eq w l r (ix2 p q))

end Idealize.ShloMosaic.DotNT

end
-- ==== Proof.Payload.lean ====
/-
  The body's arithmetic read one entry at a time, at the exact instance.

  At a grid point with vocabulary tile v the body forms, for row r and column j of the tile, the logit
  ∑ₖ x0[r,k]·x1[j,k] + x2[j] when column v·512 + j is a vocabulary column and −∞ otherwise; the new running maximum is
  the larger of the old one and the tile's row maximum; the new running sum is exp(old max − new max)·old sum plus
  the row sum of exp(logit − new max); and at the last tile the output row is max + log sum.
-/
import proofs.«430012_j79843442033222_1_alg».proof.Proof.Gen.KernelIdeal.Skeleton
import proofs.«430012_j79843442033222_1_alg».proof.Proof.LibColumns
import proofs.«430012_j79843442033222_1_alg».proof.Proof.LibDotNT
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Lse.Pay

open Idealize.ShloMosaic Idealize.ShloMosaic.ValueIdx Cert.KernelIdeal Cert.KernelIdeal.Gen

/-- The pattern of −∞ denotes −∞. -/
private theorem neg_inf_bits : Ideal.ofBits .f32 0xFF800000#32 = ⊥ := by
  simp [Ideal.ofBits, Ideal.ieee]

/-- The pattern of +0 denotes 0. -/
private theorem zero_bits : Ideal.ofBits .f32 0x00000000#32 = 0 := by
  simp [Ideal.ofBits, Ideal.ieee]

/-- The mask fill is −∞ by the table of named constants. -/
private theorem neg_big : Named.named (F := Ideal) κ "neg_big" (φ := .f32) 0xF149F2CA#32 = ⊥ :=
  IdealRules.named_const.ideal_named_scalar _ _ _ _ rfl

/-- For a tile number v < 99 and a column j < 512 of the tile, the 32-bit words v·512 + j do not wrap, and the signed
    comparison with 50257 is the comparison of the natural numbers. -/
private theorem word_lt (v j : Nat) (hv : v < 99) (hj : j < 512) :
    IntOp.cmpi .slt (IntOp.addi (IntOp.muli (BitVec.ofNat 32 v) 512#32) (BitVec.ofNat 32 j)) 50257#32
      = if v * 512 + j < 50257 then 1#1 else 0#1 := by
  have h1 : IntOp.addi (IntOp.muli (BitVec.ofNat 32 v) 512#32) (BitVec.ofNat 32 j) = BitVec.ofNat 32 (v * 512 + j) := by
    show BitVec.ofNat 32 v * BitVec.ofNat 32 512 + BitVec.ofNat 32 j = _
    rw [← BitVec.ofNat_mul, ← BitVec.ofNat_add]
  rw [h1]
  show BitVec.ofBool ((BitVec.ofNat 32 (v * 512 + j)).slt 50257#32) = _
  have hn : (BitVec.ofNat 32 (v * 512 + j)).toNat = v * 512 + j := by
    rw [BitVec.toNat_ofNat]; exact Nat.mod_eq_of_lt (by omega)
  have h2 : (BitVec.ofNat 32 (v * 512 + j)).toInt = ((v * 512 + j : Nat) : Int) := by
    rw [BitVec.toInt_eq_toNat_of_lt (by rw [hn]; omega), hn]
  have h3 : (50257#32 : BitVec 32).toInt = 50257 := by decide
  rw [BitVec.slt, h2, h3]
  by_cases h : v * 512 + j < 50257
  · rw [if_pos h, decide_eq_true (by omega)]; rfl
  · rw [if_neg h, decide_eq_false (by omega)]; rfl

/-- The vocabulary test of tile (i 1) at column j of the tile. -/
private theorem mask_apply (i : grid0.Coords) (r : Fin 2048) (j : Fin 512) :
    cmpi .slt (addi (broadcast S2048x512 (Scalar.muli (BitVec.ofNat 32 (i 1).val) 512#32))
        (iota .tc S2048x512 32 [1] iota_S2048x512_d1_w32)) (broadcast S2048x512 50257#32) (ix2 r j)
      = if (i 1).val * 512 + j.val < 50257 then 1#1 else 0#1 := by
  show IntOp.cmpi .slt (IntOp.addi (IntOp.muli (BitVec.ofNat 32 (i 1).val) 512#32)
      (iota .tc S2048x512 32 [1] iota_S2048x512_d1_w32 (ix2 r j))) 50257#32 = _
  rw [iota_single_apply]
  exact word_lt (i 1).val j.val (i 1).isLt j.isLt

/-- The tile's product: row r of the embedding block against row j of the weight tile. -/
private theorem mm_apply (x0 : Vec Ideal S1x2048x1024 .bf16) (x1 : Vec Ideal S512x1024 .bf16) (r : Fin 2048) (j : Fin 512) :
    matmul (F := Ideal) (φ₁ := .bf16) (φ₂ := .bf16) dot_S2048x1024_S512x1024_S2048x512_1_1_0_0_n_n none
        (shapeCast S2048x1024 x0 shapeCasts_S1x2048x1024_S2048x1024)
        (shapeCast S512x1024 x1 shapeCasts_S512x1024_S512x1024)
        (constant S2048x512 .f32 0x00000000#32) (ix2 r j)
      = ∑ k : Fin 1024, x0 (ix3 0 r k) * x1 (ix2 j k) := by
  refine (DotNT.matmul_zero_apply dot_S2048x1024_S512x1024_S2048x512_1_1_0_0_n_n_wf none _ _ r j).trans ?_
  refine Finset.sum_congr rfl fun k _ => ?_
  rw [shapeCast_1ab_ab_apply, shapeCast_self]

/-- The bias row broadcast over the 2048 rows. -/
private theorem bias_apply (x2 : Vec Ideal S1x512 .f32) (r : Fin 2048) (j : Fin 512) :
    broadcastTo S2048x512 (shapeCast S1x512 x2 shapeCasts_S1x512_S1x512) broadcasts_S1x512_S2048x512 (ix2 r j)
      = x2 (ix2 0 j) := by
  rw [broadcastTo_1b_ab_apply, shapeCast_self]

theorem pay6_apply (i : grid0.Coords) (x0 : Vec Ideal S1x2048x1024 .bf16) (x1 : Vec Ideal S512x1024 .bf16) (x2 : Vec Ideal S1x512 .f32)
    (r : Fin 2048) (j : Fin 512) :
    k0_pay6 (F := Ideal) i x0 x1 x2 (ix2 r j)
      = if (i 1).val * 512 + j.val < 50257 then (∑ k : Fin 1024, x0 (ix3 0 r k) * x1 (ix2 j k)) + x2 (ix2 0 j) else ⊥ := by
  show Scalar.select
      (cmpi .slt (addi (broadcast S2048x512 (Scalar.muli (BitVec.ofNat 32 (i 1).val) 512#32))
        (iota .tc S2048x512 32 [1] iota_S2048x512_d1_w32)) (broadcast S2048x512 50257#32) (ix2 r j))
      (matmul (F := Ideal) (φ₁ := .bf16) (φ₂ := .bf16) dot_S2048x1024_S512x1024_S2048x512_1_1_0_0_n_n none
          (shapeCast S2048x1024 x0 shapeCasts_S1x2048x1024_S2048x1024)
          (shapeCast S512x1024 x1 shapeCasts_S512x1024_S512x1024)
          (constant S2048x512 .f32 0x00000000#32) (ix2 r j)
        + broadcastTo S2048x512 (shapeCast S1x512 x2 shapeCasts_S1x512_S1x512) broadcasts_S1x512_S2048x512 (ix2 r j))
      (Named.named (F := Ideal) κ "neg_big" (φ := .f32) 0xF149F2CA#32) = _
  rw [mask_apply, mm_apply, bias_apply, neg_big]
  by_cases h : (i 1).val * 512 + j.val < 50257
  · rw [if_pos h, if_pos h]; rfl
  · rw [if_neg h, if_neg h]; rfl

/-- The index of the 2048 × 512 array above row r with column k. -/
private theorem lift_row (r : Fin 2048) (k : Fin 512) (k' : Fin (S2048x512.size 1)) (hk : k'.val = k.val) :
    reduces_S2048x512_S2048.lift (ix1 r) k' = ix2 r k := by
  funext a
  match a with
  | ⟨0, _⟩ => exact Fin.ext rfl
  | ⟨1, _⟩ => exact Fin.ext hk

/-- A fold of max over Fin n, re-indexed over Fin m for m = n. -/
private theorem fold_cast {n m : Nat} (h : n = m) (b : EReal) (f : Fin n → EReal) :
    (Finset.univ : Finset (Fin n)).fold max b f = (Finset.univ : Finset (Fin m)).fold max b (fun k => f (Fin.cast h.symm k)) := by
  subst h; rfl

/-- A sum over Fin n, re-indexed over Fin m for m = n. -/
private theorem sum_cast {n m : Nat} (h : n = m) (f : Fin n → EReal) :
    ∑ k : Fin n, f k = ∑ k : Fin m, f (Fin.cast h.symm k) := by
  subst h; rfl

/-- The extent of the reduced axis. -/
private theorem size_one : S2048x512.size 1 = 512 := rfl

/-- The row maximum of a 2048 × 512 array, kept as a column: at row r the fold of max from −∞ over the row. -/
private theorem rowmax_apply (src : FVec Ideal S2048x512 .f32) (r : Fin 2048) :
    shapeCast S2048x1 (multiReduction .maximumf [1] S2048 src 0xFF800000#32 reduces_S2048x512_S2048 (.inl rfl) rfl)
        shapeCasts_S2048_S2048x1 (ix2 r 0)
      = (Finset.univ : Finset (Fin 512)).fold max ⊥ (fun j => src (ix2 r j)) := by
  refine (Columns.shapeCast_a_a1_apply _ _ r 0).trans ?_
  refine (Ideal.multiReduction_maximumf_single src _ _ _ _ (ix1 r)).trans ?_
  refine (fold_cast size_one _ _).trans ?_
  exact congrArg₂ (fun (b : EReal) (f : Fin 512 → EReal) => (Finset.univ : Finset (Fin 512)).fold max b f) neg_inf_bits
    (funext fun k => congrArg src (lift_row r k _ rfl))

/-- The row sum of a 2048 × 512 array, kept as a column: at row r the sum over the row. -/
private theorem rowsum_apply (src : FVec Ideal S2048x512 .f32) (r : Fin 2048) :
    shapeCast S2048x1 (multiReduction .add [1] S2048 src 0x00000000#32 reduces_S2048x512_S2048 (.inl rfl) rfl)
        shapeCasts_S2048_S2048x1 (ix2 r 0)
      = ∑ j : Fin 512, src (ix2 r j) := by
  refine (Columns.shapeCast_a_a1_apply _ _ r 0).trans ?_
  refine (Ideal.multiReduction_add_single src _ _ _ _ (ix1 r)).trans ?_
  refine (sum_cast size_one _).trans ?_
  exact Finset.sum_congr rfl fun k _ => congrArg src (lift_row r k _ rfl)

/-- The exponential of an array, read at an index. -/
private theorem exp_apply {s : Shape} {φ : FTy} (v : FVec Ideal s φ) (i : s.Idx) : exp v i = Ideal.exp (v i) := rfl

theorem pay7_apply (i : grid0.Coords) (x0 : Vec Ideal S1x2048x1024 .bf16) (x1 : Vec Ideal S512x1024 .bf16) (x2 : Vec Ideal S1x512 .f32)
    (v20 : Vec Ideal S2048x1 .f32) (r : Fin 2048) :
    k0_pay7 (F := Ideal) i x0 x1 x2 v20 (ix2 r 0)
      = max (v20 (ix2 r 0)) ((Finset.univ : Finset (Fin 512)).fold max ⊥ (fun j => k0_pay6 (F := Ideal) i x0 x1 x2 (ix2 r j))) := by
  unfold k0_pay7
  refine (maximumf_apply _ _ _).trans ?_
  exact congrArg (max (v20 (ix2 r 0))) (rowmax_apply (k0_pay6 (F := Ideal) i x0 x1 x2) r)

theorem pay8_apply (i : grid0.Coords) (x0 : Vec Ideal S1x2048x1024 .bf16) (x1 : Vec Ideal S512x1024 .bf16) (x2 : Vec Ideal S1x512 .f32)
    (v20 : Vec Ideal S2048x1 .f32) (v29 : Vec Ideal S2048x1 .f32) (r : Fin 2048) :
    k0_pay8 (F := Ideal) i x0 x1 x2 v20 v29 (ix2 r 0)
      = Ideal.exp (v20 (ix2 r 0) - k0_pay7 (F := Ideal) i x0 x1 x2 v20 (ix2 r 0)) * v29 (ix2 r 0)
        + ∑ j : Fin 512, Ideal.exp (k0_pay6 (F := Ideal) i x0 x1 x2 (ix2 r j) - k0_pay7 (F := Ideal) i x0 x1 x2 v20 (ix2 r 0)) := by
  unfold k0_pay8
  refine (addf_apply _ _ _).trans ?_
  refine congrArg₂ (fun a b : EReal => a + b) ?_ ?_
  · refine (mulf_apply _ _ _).trans ?_
    refine congrArg (fun a : EReal => a * v29 (ix2 r 0)) ?_
    refine (exp_apply _ _).trans ?_
    exact congrArg Ideal.exp (subf_apply _ _ _)
  · refine (rowsum_apply _ r).trans ?_
    refine Finset.sum_congr rfl fun k _ => ?_
    refine (exp_apply _ _).trans ?_
    refine congrArg Ideal.exp ?_
    refine (subf_apply _ _ _).trans ?_
    exact congrArg (fun a : EReal => k0_pay6 (F := Ideal) i x0 x1 x2 (ix2 r k) - a)
      (Columns.broadcastTo_a1_ab_apply _ _ r k)

theorem pay3_apply (v43 : Vec Ideal S2048x1 .f32) (v44 : Vec Ideal S2048x1 .f32) (r : Fin 2048) :
    k0_pay3 (F := Ideal) v43 v44 (ix3 0 r 0) = v43 (ix2 r 0) + Ideal.log (v44 (ix2 r 0)) := by
  unfold k0_pay3
  refine (shapeCast_ab_1ab_apply _ _ 0 r 0).trans ?_
  rfl

theorem pay4_apply (r : Fin 2048) : k0_pay4 (F := Ideal) (ix2 r 0) = ⊥ := by
  unfold k0_pay4
  rw [shapeCast_self]
  exact neg_inf_bits

theorem pay5_apply (r : Fin 2048) : k0_pay5 (F := Ideal) (ix2 r 0) = 0 := by
  unfold k0_pay5
  rw [shapeCast_self]
  exact zero_bits

theorem pay1_eq (v : FVec Ideal S2048x1 .f32) : k0_pay1 (F := Ideal) v = v := by
  unfold k0_pay1
  exact shapeCast_self v _

theorem pay2_eq (v : FVec Ideal S2048x1 .f32) : k0_pay2 (F := Ideal) v = v := by
  unfold k0_pay2
  exact shapeCast_self v _

end Cert.Lse.Pay

end
-- ==== Proof.Pieces.lean ====
/-
  What each control case of the body leaves in the two carried scratch rows and in the output block, as the body's
  own arithmetic of what it loaded: the first tile starts from maximum −∞ and sum 0, every later tile from what the
  tile before left, and the last tile also stores max + log sum.
-/
import proofs.«430012_j79843442033222_1_alg».proof.Proof.Gen.KernelIdeal.Frame
import Idealize.ShloMosaic.Lib.Pipeline.Value

set_option maxRecDepth 16384

noncomputable section

namespace Cert.Lse.Pieces

open Idealize.ShloMosaic Idealize.ShloMosaic.TcCoe Idealize.ShloMosaic.Tactic Idealize.SL.Sem Cert.KernelIdeal Cert.KernelIdeal.Gen

variable {F : FTy → Type} [FloatOps F] [Named F]

/-- The origin of a whole rank-2 block: every offset is zero. -/
private theorem hz2 : (![0, 0] : Fin 2 → Nat) = fun _ => 0 := funext fun a => by fin_cases a <;> rfl

/-- The origin of a whole rank-3 block: every offset is zero. -/
private theorem hz3 : (![0, 0, 0] : Fin 3 → Nat) = fun _ => 0 := funext fun a => by fin_cases a <;> rfl

/- FIRST TILE, the running maximum row: the row is first reset to −∞ and then overwritten whole by the new maximum,
   so the later store is what stays; the old maximum the update read back is the reset value itself. -/
theorem sout0_A_0_eq (c : Dev nD) (i : grid0.Coords) (arg2 : Memref sig .tc .vmem S1x2048x1024 .bf16) (harg2 : arg2.IsWhole) (arg3 : Memref sig .tc .vmem S512x1024 .bf16) (harg3 : arg3.IsWhole) (arg4 : Memref sig .tc .vmem S1x512 .f32) (harg4 : arg4.IsWhole) (arg5 : Memref sig .tc .vmem S1x2048x1 .f32) (harg5 : arg5.IsWhole) (arg6 : Memref sig .tc .vmem S2048x1 .f32) (harg6 : arg6.IsWhole) (arg7 : Memref sig .tc .vmem S2048x1 .f32) (harg7 : arg7.IsWhole) (hc0 : cond0_0 i) (hc1 : ¬cond0_1 i)
    (x0 : Vec F S1x2048x1024 .bf16) (x1 : Vec F S512x1024 .bf16) (x2 : Vec F S1x512 .f32) :
    sout0_A_0 c i arg2 harg2 arg3 harg3 arg4 harg4 arg5 harg5 arg6 harg6 arg7 harg7 hc0 hc1 x0 x1 x2 = k0_pay2 (k0_pay7 i x0 x1 x2 (k0_pay4 (F := F))) := by
  unfold sout0_A_0
  rw [View.read_writes_eq_canon _ _ _ (scover0_A_0 c i arg2 harg2 arg3 harg3 arg4 harg4 arg5 harg5 arg6 harg6 arg7 harg7 hc0 hc1 x0 x1 x2)]
  unfold kernelRun0_A
  dsimp only
  sl_unfold_words
  rw [View.canon_cons_unit_zero (S := S2048x1) hz2]
  simp only [View.readAt_eq_ld, harg2.read_unread, harg3.read_unread, harg4.read_unread,
    View.ld_unit_zero (S := S1x2048x1024) hz3, View.ld_unit_zero (S := S512x1024) hz2, View.ld_unit_zero (S := S1x512) hz2,
    View.readCov_unit_zero (S := S2048x1) _ hz2]

/- FIRST TILE, the running sum row: reset to 0, then overwritten whole by the new sum, whose old maximum and old sum
   are the two reset values read back. -/
theorem sout0_A_1_eq (c : Dev nD) (i : grid0.Coords) (arg2 : Memref sig .tc .vmem S1x2048x1024 .bf16) (harg2 : arg2.IsWhole) (arg3 : Memref sig .tc .vmem S512x1024 .bf16) (harg3 : arg3.IsWhole) (arg4 : Memref sig .tc .vmem S1x512 .f32) (harg4 : arg4.IsWhole) (arg5 : Memref sig .tc .vmem S1x2048x1 .f32) (harg5 : arg5.IsWhole) (arg6 : Memref sig .tc .vmem S2048x1 .f32) (harg6 : arg6.IsWhole) (arg7 : Memref sig .tc .vmem S2048x1 .f32) (harg7 : arg7.IsWhole) (hc0 : cond0_0 i) (hc1 : ¬cond0_1 i)
    (x0 : Vec F S1x2048x1024 .bf16) (x1 : Vec F S512x1024 .bf16) (x2 : Vec F S1x512 .f32) :
    sout0_A_1 c i arg2 harg2 arg3 harg3 arg4 harg4 arg5 harg5 arg6 harg6 arg7 harg7 hc0 hc1 x0 x1 x2 = k0_pay1 (k0_pay8 i x0 x1 x2 (k0_pay4 (F := F)) (k0_pay5 (F := F))) := by
  unfold sout0_A_1
  rw [View.read_writes_eq_canon _ _ _ (scover0_A_1 c i arg2 harg2 arg3 harg3 arg4 harg4 arg5 harg5 arg6 harg6 arg7 harg7 hc0 hc1 x0 x1 x2)]
  unfold kernelRun0_A
  dsimp only
  sl_unfold_words
  rw [View.canon_cons_unit_zero (S := S2048x1) hz2]
  simp only [View.readAt_eq_ld, harg2.read_unread, harg3.read_unread, harg4.read_unread,
    View.ld_unit_zero (S := S1x2048x1024) hz3, View.ld_unit_zero (S := S512x1024) hz2, View.ld_unit_zero (S := S1x512) hz2,
    View.readCov_unit_zero (S := S2048x1) _ hz2]

/- MIDDLE TILE, the running maximum row: one whole store of the new maximum, computed from the three input blocks and
   the maximum the tile before left. -/
theorem sout0_B_0_eq (c : Dev nD) (i : grid0.Coords) (arg2 : Memref sig .tc .vmem S1x2048x1024 .bf16) (harg2 : arg2.IsWhole) (arg3 : Memref sig .tc .vmem S512x1024 .bf16) (harg3 : arg3.IsWhole) (arg4 : Memref sig .tc .vmem S1x512 .f32) (harg4 : arg4.IsWhole) (arg5 : Memref sig .tc .vmem S1x2048x1 .f32) (harg5 : arg5.IsWhole) (arg6 : Memref sig .tc .vmem S2048x1 .f32) (harg6 : arg6.IsWhole) (arg7 : Memref sig .tc .vmem S2048x1 .f32) (harg7 : arg7.IsWhole) (hc0 : ¬cond0_0 i) (hc1 : ¬cond0_1 i)
    (x0 : Vec F S1x2048x1024 .bf16) (x1 : Vec F S512x1024 .bf16) (x2 : Vec F S1x512 .f32) (xs0 : Vec F S2048x1 .f32) (xs1 : Vec F S2048x1 .f32) :
    sout0_B_0 c i arg2 harg2 arg3 harg3 arg4 harg4 arg5 harg5 arg6 harg6 arg7 harg7 hc0 hc1 x0 x1 x2 xs0 xs1 = k0_pay2 (k0_pay7 i x0 x1 x2 xs0) := by
  unfold sout0_B_0
  rw [View.read_writes_eq_canon _ _ _ (scover0_B_0 c i arg2 harg2 arg3 harg3 arg4 harg4 arg5 harg5 arg6 harg6 arg7 harg7 hc0 hc1 x0 x1 x2 xs0 xs1)]
  unfold kernelRun0_B
  dsimp only
  sl_unfold_words
  rw [View.canon_unit_zero (S := S2048x1) hz2]
  simp only [View.readAt_eq_ld, harg2.read_unread, harg3.read_unread, harg4.read_unread,
    View.ld_unit_zero (S := S1x2048x1024) hz3, View.ld_unit_zero (S := S512x1024) hz2, View.ld_unit_zero (S := S1x512) hz2,
    harg6.read_unread, View.ld_unit_zero (S := S2048x1) hz2]

/- MIDDLE TILE, the running sum row: one whole store of the new sum, computed from the input blocks and the maximum
   and sum the tile before left. -/
theorem sout0_B_1_eq (c : Dev nD) (i : grid0.Coords) (arg2 : Memref sig .tc .vmem S1x2048x1024 .bf16) (harg2 : arg2.IsWhole) (arg3 : Memref sig .tc .vmem S512x1024 .bf16) (harg3 : arg3.IsWhole) (arg4 : Memref sig .tc .vmem S1x512 .f32) (harg4 : arg4.IsWhole) (arg5 : Memref sig .tc .vmem S1x2048x1 .f32) (harg5 : arg5.IsWhole) (arg6 : Memref sig .tc .vmem S2048x1 .f32) (harg6 : arg6.IsWhole) (arg7 : Memref sig .tc .vmem S2048x1 .f32) (harg7 : arg7.IsWhole) (hc0 : ¬cond0_0 i) (hc1 : ¬cond0_1 i)
    (x0 : Vec F S1x2048x1024 .bf16) (x1 : Vec F S512x1024 .bf16) (x2 : Vec F S1x512 .f32) (xs0 : Vec F S2048x1 .f32) (xs1 : Vec F S2048x1 .f32) :
    sout0_B_1 c i arg2 harg2 arg3 harg3 arg4 harg4 arg5 harg5 arg6 harg6 arg7 harg7 hc0 hc1 x0 x1 x2 xs0 xs1 = k0_pay1 (k0_pay8 i x0 x1 x2 xs0 xs1) := by
  unfold sout0_B_1
  rw [View.read_writes_eq_canon _ _ _ (scover0_B_1 c i arg2 harg2 arg3 harg3 arg4 harg4 arg5 harg5 arg6 harg6 arg7 harg7 hc0 hc1 x0 x1 x2 xs0 xs1)]
  unfold kernelRun0_B
  dsimp only
  sl_unfold_words
  rw [View.canon_unit_zero (S := S2048x1) hz2]
  simp only [View.readAt_eq_ld, harg2.read_unread, harg3.read_unread, harg4.read_unread,
    View.ld_unit_zero (S := S1x2048x1024) hz3, View.ld_unit_zero (S := S512x1024) hz2, View.ld_unit_zero (S := S1x512) hz2,
    harg6.read_unread, harg7.read_unread, View.ld_unit_zero (S := S2048x1) hz2]

/- LAST TILE, the running maximum row: as in a middle tile. -/
theorem sout0_C_0_eq (c : Dev nD) (i : grid0.Coords) (arg2 : Memref sig .tc .vmem S1x2048x1024 .bf16) (harg2 : arg2.IsWhole) (arg3 : Memref sig .tc .vmem S512x1024 .bf16) (harg3 : arg3.IsWhole) (arg4 : Memref sig .tc .vmem S1x512 .f32) (harg4 : arg4.IsWhole) (arg5 : Memref sig .tc .vmem S1x2048x1 .f32) (harg5 : arg5.IsWhole) (arg6 : Memref sig .tc .vmem S2048x1 .f32) (harg6 : arg6.IsWhole) (arg7 : Memref sig .tc .vmem S2048x1 .f32) (harg7 : arg7.IsWhole) (hc0 : ¬cond0_0 i) (hc1 : cond0_1 i)
    (x0 : Vec F S1x2048x1024 .bf16) (x1 : Vec F S512x1024 .bf16) (x2 : Vec F S1x512 .f32) (xs0 : Vec F S2048x1 .f32) (xs1 : Vec F S2048x1 .f32) :
    sout0_C_0 c i arg2 harg2 arg3 harg3 arg4 harg4 arg5 harg5 arg6 harg6 arg7 harg7 hc0 hc1 x0 x1 x2 xs0 xs1 = k0_pay2 (k0_pay7 i x0 x1 x2 xs0) := by
  unfold sout0_C_0
  rw [View.read_writes_eq_canon _ _ _ (scover0_C_0 c i arg2 harg2 arg3 harg3 arg4 harg4 arg5 harg5 arg6 harg6 arg7 harg7 hc0 hc1 x0 x1 x2 xs0 xs1)]
  unfold kernelRun0_C
  dsimp only
  sl_unfold_words
  rw [View.canon_unit_zero (S := S2048x1) hz2]
  simp only [View.readAt_eq_ld, harg2.read_unread, harg3.read_unread, harg4.read_unread,
    View.ld_unit_zero (S := S1x2048x1024) hz3, View.ld_unit_zero (S := S512x1024) hz2, View.ld_unit_zero (S := S1x512) hz2,
    harg6.read_unread, View.ld_unit_zero (S := S2048x1) hz2]

/- LAST TILE, the running sum row: as in a middle tile. -/
theorem sout0_C_1_eq (c : Dev nD) (i : grid0.Coords) (arg2 : Memref sig .tc .vmem S1x2048x1024 .bf16) (harg2 : arg2.IsWhole) (arg3 : Memref sig .tc .vmem S512x1024 .bf16) (harg3 : arg3.IsWhole) (arg4 : Memref sig .tc .vmem S1x512 .f32) (harg4 : arg4.IsWhole) (arg5 : Memref sig .tc .vmem S1x2048x1 .f32) (harg5 : arg5.IsWhole) (arg6 : Memref sig .tc .vmem S2048x1 .f32) (harg6 : arg6.IsWhole) (arg7 : Memref sig .tc .vmem S2048x1 .f32) (harg7 : arg7.IsWhole) (hc0 : ¬cond0_0 i) (hc1 : cond0_1 i)
    (x0 : Vec F S1x2048x1024 .bf16) (x1 : Vec F S512x1024 .bf16) (x2 : Vec F S1x512 .f32) (xs0 : Vec F S2048x1 .f32) (xs1 : Vec F S2048x1 .f32) :
    sout0_C_1 c i arg2 harg2 arg3 harg3 arg4 harg4 arg5 harg5 arg6 harg6 arg7 harg7 hc0 hc1 x0 x1 x2 xs0 xs1 = k0_pay1 (k0_pay8 i x0 x1 x2 xs0 xs1) := by
  unfold sout0_C_1
  rw [View.read_writes_eq_canon _ _ _ (scover0_C_1 c i arg2 harg2 arg3 harg3 arg4 harg4 arg5 harg5 arg6 harg6 arg7 harg7 hc0 hc1 x0 x1 x2 xs0 xs1)]
  unfold kernelRun0_C
  dsimp only
  sl_unfold_words
  rw [View.canon_unit_zero (S := S2048x1) hz2]
  simp only [View.readAt_eq_ld, harg2.read_unread, harg3.read_unread, harg4.read_unread,
    View.ld_unit_zero (S := S1x2048x1024) hz3, View.ld_unit_zero (S := S512x1024) hz2, View.ld_unit_zero (S := S1x512) hz2,
    harg6.read_unread, harg7.read_unread, View.ld_unit_zero (S := S2048x1) hz2]

/- LAST TILE, the output block: one whole store of max + log sum, where the maximum and the sum are read back from the
   two rows after this tile's own stores, so they are the final maximum and the final sum. -/
theorem out0_C_3_eq (c : Dev nD) (i : grid0.Coords) (arg2 : Memref sig .tc .vmem S1x2048x1024 .bf16) (harg2 : arg2.IsWhole) (arg3 : Memref sig .tc .vmem S512x1024 .bf16) (harg3 : arg3.IsWhole) (arg4 : Memref sig .tc .vmem S1x512 .f32) (harg4 : arg4.IsWhole) (arg5 : Memref sig .tc .vmem S1x2048x1 .f32) (harg5 : arg5.IsWhole) (arg6 : Memref sig .tc .vmem S2048x1 .f32) (harg6 : arg6.IsWhole) (arg7 : Memref sig .tc .vmem S2048x1 .f32) (harg7 : arg7.IsWhole) (hc0 : ¬cond0_0 i) (hc1 : cond0_1 i)
    (x0 : Vec F S1x2048x1024 .bf16) (x1 : Vec F S512x1024 .bf16) (x2 : Vec F S1x512 .f32) (xs0 : Vec F S2048x1 .f32) (xs1 : Vec F S2048x1 .f32) :
    out0_C_3 c i arg2 harg2 arg3 harg3 arg4 harg4 arg5 harg5 arg6 harg6 arg7 harg7 hc0 hc1 x0 x1 x2 xs0 xs1 = k0_pay3 (k0_pay2 (k0_pay7 i x0 x1 x2 xs0)) (k0_pay1 (k0_pay8 i x0 x1 x2 xs0 xs1)) := by
  unfold out0_C_3
  rw [View.read_writes_eq_canon _ _ _ (cover0_C_3 c i arg2 harg2 arg3 harg3 arg4 harg4 arg5 harg5 arg6 harg6 arg7 harg7 hc0 hc1 x0 x1 x2 xs0 xs1)]
  unfold kernelRun0_C
  dsimp only
  sl_unfold_words
  rw [View.canon_unit_zero (S := S1x2048x1) hz3]
  simp only [View.readAt_eq_ld, harg2.read_unread, harg3.read_unread, harg4.read_unread,
    View.ld_unit_zero (S := S1x2048x1024) hz3, View.ld_unit_zero (S := S512x1024) hz2, View.ld_unit_zero (S := S1x512) hz2,
    harg6.read_unread, harg7.read_unread, View.ld_unit_zero (S := S2048x1) hz2,
    View.readCov_unit_zero (S := S2048x1) _ hz2]

end Cert.Lse.Pieces

end
-- ==== Proof.Invariant.lean ====
/-
  The two carried rows after every grid point, and the output block after a batch element's last tile.

  Grid point t = b·99 + v handles vocabulary tile v of batch element b. For a row r < 2047 with real logits
  x = xr E W Bv b r, after the point the first scratch row holds the maximum of the logits in tiles 0…v and the second
  the sum of exp(logit − that maximum) over the same columns: by induction on v, the first tile starting from −∞ and 0,
  each later tile from what the tile before left (the online-softmax step). After tile 98 every column has been seen
  and the stored block holds max + log sum = lse x.
-/
import proofs.«430012_j79843442033222_1_alg».proof.Proof.Gen.KernelIdeal.Frame
import proofs.«430012_j79843442033222_1_alg».proof.Proof.KArgs
import proofs.«430012_j79843442033222_1_alg».proof.Proof.HostHead
import proofs.«430012_j79843442033222_1_alg».proof.Proof.Payload
import proofs.«430012_j79843442033222_1_alg».proof.Proof.Pieces
import proofs.«430012_j79843442033222_1_alg».proof.Proof.Online

set_option maxRecDepth 16384

noncomputable section

open scoped BigOperators

namespace Cert.Lse.K

open Idealize.ShloMosaic Idealize.ShloMosaic.TcCoe Idealize.ShloMosaic.ValueIdx Idealize.SL.Sem
open Cert.KernelIdeal Cert.KernelIdeal.Gen Cert.Lse Cert.Lse.Pay Cert.Lse.Pieces

variable (m : (ℓ : Loc nD τ sig) → Buf (Elt Ideal) ℓ)

/-- The real logits of row r of batch element b. -/
abbrev rowX (c : Dev nD) (b : Fin 2) (r : Fin 2048) : ℕ → ℝ := xr (argE m c) (argW m c) (argB m c) b r

/-- Tile v of a real row (r < 2047), as the body forms it at point t = b·99 + v from the three staged blocks: the
    row's logits at the tile's vocabulary columns, −∞ at the padding columns of the last tile. -/
theorem tile_eq (c : Dev nD) (hfin : Finite (argE m c) (argW m c) (argB m c)) (t : Fin cfg0.N) (b : Fin 2) (v : Fin 99)
    (ht : t.val = b.val * 99 + v.val) (r : Fin 2048) (hr : r.val < 2047) (j : Fin 512) :
    k0_pay6 (F := Ideal) (grid0.coords t) (blk0 m c t) (blk1 m c t) (blk2 m c t) (ix2 r j) = tileEntry (rowX m c b r) v.val j := by
  rw [pay6_apply, coords1 t b v ht]
  unfold tileEntry
  by_cases h : v.val * 512 + j.val < 50257
  · rw [if_pos h, if_pos h, blk2_apply m c t b v ht j, bPad_apply, dif_pos h]
    have hk : ∀ k : Fin 1024, blk0 m c t (ix3 0 r k) * blk1 m c t (ix2 j k)
        = argE m c (ix3 b r k) * argW m c (ix2 ⟨v.val * 512 + j.val, h⟩ k) := by
      intro k
      rw [blk0_apply m c t b v ht r k, blk1_apply m c t b v ht j k, embPad_apply, if_pos hr, wPad_apply, dif_pos h]
    rw [Finset.sum_congr rfl (fun k _ => hk k)]
    exact logit_coe (argE m c) (argW m c) (argB m c) hfin b r ⟨v.val * 512 + j.val, h⟩
  · rw [if_neg h, if_neg h]

/-- The online step of the maximum at one row, from the tile and the old maximum. -/
theorem max_step (i : grid0.Coords) (x0 : Vec Ideal S1x2048x1024 .bf16) (x1 : Vec Ideal S512x1024 .bf16) (x2 : Vec Ideal S1x512 .f32)
    (v20 : Vec Ideal S2048x1 .f32) (r : Fin 2048) (x : ℕ → ℝ) (v : ℕ) (hv : v < 99)
    (hT : ∀ j : Fin 512, k0_pay6 (F := Ideal) i x0 x1 x2 (ix2 r j) = tileEntry x v j)
    (hm : v20 (ix2 r 0) = mPrev x v) :
    k0_pay7 (F := Ideal) i x0 x1 x2 v20 (ix2 r 0) = ((runMax x (v + 1) : ℝ) : EReal) := by
  rw [pay7_apply, hm, show (fun j => k0_pay6 (F := Ideal) i x0 x1 x2 (ix2 r j)) = tileEntry x v from funext hT]
  exact step_max x v hv

/-- The online step of the sum at one row. -/
theorem sum_step (i : grid0.Coords) (x0 : Vec Ideal S1x2048x1024 .bf16) (x1 : Vec Ideal S512x1024 .bf16) (x2 : Vec Ideal S1x512 .f32)
    (v20 : Vec Ideal S2048x1 .f32) (v29 : Vec Ideal S2048x1 .f32) (r : Fin 2048) (x : ℕ → ℝ) (v : ℕ) (hv : v < 99)
    (hT : ∀ j : Fin 512, k0_pay6 (F := Ideal) i x0 x1 x2 (ix2 r j) = tileEntry x v j)
    (hm : v20 (ix2 r 0) = mPrev x v) (hl : v29 (ix2 r 0) = lPrev x v) :
    k0_pay8 (F := Ideal) i x0 x1 x2 v20 v29 (ix2 r 0) = ((runSum x (v + 1) : ℝ) : EReal) := by
  rw [pay8_apply, max_step i x0 x1 x2 v20 r x v hv hT hm, hm, hl,
    Finset.sum_congr rfl (fun j _ => congrArg (fun e => Ideal.exp (e - ((runMax x (v + 1) : ℝ) : EReal))) (hT j))]
  exact step_sum x v hv

/-- After grid point b·99 + v, row r < 2047 of the two carried rows: the running maximum and sum over tiles 0…v. -/
theorem carried (c : Dev nD) (hfin : Finite (argE m c) (argW m c) (argB m c)) (b : Fin 2) (r : Fin 2048) (hr : r.val < 2047) :
    ∀ (v : ℕ) (hv : v < 99) (t : Fin cfg0.N), t.val = b.val * 99 + v →
      (outsAt0 m c t.val t.isLt).2.1 (ix2 r 0) = ((runMax (rowX m c b r) (v + 1) : ℝ) : EReal)
      ∧ (outsAt0 m c t.val t.isLt).2.2 (ix2 r 0) = ((runSum (rowX m c b r) (v + 1) : ℝ) : EReal) := by
  intro v
  induction v with
  | zero =>
    intro hv t ht
    have h0 : t.val % 99 = 0 := by omega
    have h1 : ¬t.val % 99 = 98 := by omega
    have hT := tile_eq m c hfin t b ⟨0, hv⟩ ht r hr
    rw [outsAt0_A m c t h0 h1]
    dsimp only
    constructor
    · refine (congrFun (sout0_A_0_eq (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (blk0 m c t) (blk1 m c t) (blk2 m c t)) (ix2 r 0)).trans ?_
      rw [pay2_eq]
      exact max_step (grid0.coords t) (blk0 m c t) (blk1 m c t) (blk2 m c t) (k0_pay4 (F := Ideal)) r (rowX m c b r) 0 hv hT
        ((pay4_apply r).trans (if_pos rfl).symm)
    · refine (congrFun (sout0_A_1_eq (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (blk0 m c t) (blk1 m c t) (blk2 m c t)) (ix2 r 0)).trans ?_
      rw [pay1_eq]
      exact sum_step (grid0.coords t) (blk0 m c t) (blk1 m c t) (blk2 m c t) (k0_pay4 (F := Ideal)) (k0_pay5 (F := Ideal)) r (rowX m c b r) 0 hv hT
        ((pay4_apply r).trans (if_pos rfl).symm) ((pay5_apply r).trans (if_pos rfl).symm)
  | succ v ih =>
    intro hv t ht
    have hN : t.val < 198 := lt_of_lt_of_eq t.isLt (show cfg0.N = 198 from N_0)
    have hb : b.val < 2 := b.isLt
    have h0 : ¬t.val % 99 = 0 := by omega
    have hT := tile_eq m c hfin t b ⟨v + 1, hv⟩ ht r hr
    have hp := ih (by omega) ⟨t.val - 1, Nat.lt_of_le_of_lt (Nat.sub_le _ _) t.isLt⟩ (by show t.val - 1 = b.val * 99 + v; omega)
    have hm : (outsAt0 m c (t.val - 1) (Nat.lt_of_le_of_lt (Nat.sub_le _ _) t.isLt)).2.1 (ix2 r 0) = mPrev (rowX m c b r) (v + 1) := hp.1.trans (if_neg (Nat.succ_ne_zero v)).symm
    have hl : (outsAt0 m c (t.val - 1) (Nat.lt_of_le_of_lt (Nat.sub_le _ _) t.isLt)).2.2 (ix2 r 0) = lPrev (rowX m c b r) (v + 1) := hp.2.trans (if_neg (Nat.succ_ne_zero v)).symm
    by_cases h1 : t.val % 99 = 98
    · rw [outsAt0_C m c t h0 h1]
      dsimp only
      constructor
      · refine (congrFun (sout0_C_0_eq (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (blk0 m c t) (blk1 m c t) (blk2 m c t) (outsAt0 m c (t.val - 1) (Nat.lt_of_le_of_lt (Nat.sub_le _ _) t.isLt)).2.1 (outsAt0 m c (t.val - 1) (Nat.lt_of_le_of_lt (Nat.sub_le _ _) t.isLt)).2.2) (ix2 r 0)).trans ?_
        rw [pay2_eq]
        exact max_step (grid0.coords t) (blk0 m c t) (blk1 m c t) (blk2 m c t) (outsAt0 m c (t.val - 1) (Nat.lt_of_le_of_lt (Nat.sub_le _ _) t.isLt)).2.1 r (rowX m c b r) (v + 1) hv hT hm
      · refine (congrFun (sout0_C_1_eq (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (blk0 m c t) (blk1 m c t) (blk2 m c t) (outsAt0 m c (t.val - 1) (Nat.lt_of_le_of_lt (Nat.sub_le _ _) t.isLt)).2.1 (outsAt0 m c (t.val - 1) (Nat.lt_of_le_of_lt (Nat.sub_le _ _) t.isLt)).2.2) (ix2 r 0)).trans ?_
        rw [pay1_eq]
        exact sum_step (grid0.coords t) (blk0 m c t) (blk1 m c t) (blk2 m c t) (outsAt0 m c (t.val - 1) (Nat.lt_of_le_of_lt (Nat.sub_le _ _) t.isLt)).2.1 (outsAt0 m c (t.val - 1) (Nat.lt_of_le_of_lt (Nat.sub_le _ _) t.isLt)).2.2 r (rowX m c b r) (v + 1) hv hT hm hl
    · rw [outsAt0_B m c t h0 h1]
      dsimp only
      constructor
      · refine (congrFun (sout0_B_0_eq (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (blk0 m c t) (blk1 m c t) (blk2 m c t) (outsAt0 m c (t.val - 1) (Nat.lt_of_le_of_lt (Nat.sub_le _ _) t.isLt)).2.1 (outsAt0 m c (t.val - 1) (Nat.lt_of_le_of_lt (Nat.sub_le _ _) t.isLt)).2.2) (ix2 r 0)).trans ?_
        rw [pay2_eq]
        exact max_step (grid0.coords t) (blk0 m c t) (blk1 m c t) (blk2 m c t) (outsAt0 m c (t.val - 1) (Nat.lt_of_le_of_lt (Nat.sub_le _ _) t.isLt)).2.1 r (rowX m c b r) (v + 1) hv hT hm
      · refine (congrFun (sout0_B_1_eq (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (blk0 m c t) (blk1 m c t) (blk2 m c t) (outsAt0 m c (t.val - 1) (Nat.lt_of_le_of_lt (Nat.sub_le _ _) t.isLt)).2.1 (outsAt0 m c (t.val - 1) (Nat.lt_of_le_of_lt (Nat.sub_le _ _) t.isLt)).2.2) (ix2 r 0)).trans ?_
        rw [pay1_eq]
        exact sum_step (grid0.coords t) (blk0 m c t) (blk1 m c t) (blk2 m c t) (outsAt0 m c (t.val - 1) (Nat.lt_of_le_of_lt (Nat.sub_le _ _) t.isLt)).2.1 (outsAt0 m c (t.val - 1) (Nat.lt_of_le_of_lt (Nat.sub_le _ _) t.isLt)).2.2 r (rowX m c b r) (v + 1) hv hT hm hl

/-- After the last tile of batch element b, row r < 2047 of the stored output block is lse of the row's logits. -/
theorem out_last (c : Dev nD) (hfin : Finite (argE m c) (argW m c) (argB m c)) (b : Fin 2) (r : Fin 2048) (hr : r.val < 2047)
    (t : Fin cfg0.N) (ht : t.val = b.val * 99 + 98) :
    (outsAt0 m c t.val t.isLt).1 (ix3 0 r 0) = ((lse (rowX m c b r) : ℝ) : EReal) := by
  have hN : t.val < 198 := lt_of_lt_of_eq t.isLt (show cfg0.N = 198 from N_0)
  have h0 : ¬t.val % 99 = 0 := by omega
  have h1 : t.val % 99 = 98 := by omega
  have hT := tile_eq m c hfin t b ⟨98, by omega⟩ ht r hr
  have hp := carried m c hfin b r hr 97 (by omega) ⟨t.val - 1, Nat.lt_of_le_of_lt (Nat.sub_le _ _) t.isLt⟩ (by show t.val - 1 = b.val * 99 + 97; omega)
  have hm : (outsAt0 m c (t.val - 1) (Nat.lt_of_le_of_lt (Nat.sub_le _ _) t.isLt)).2.1 (ix2 r 0) = mPrev (rowX m c b r) 98 := hp.1.trans (if_neg (by decide)).symm
  have hl : (outsAt0 m c (t.val - 1) (Nat.lt_of_le_of_lt (Nat.sub_le _ _) t.isLt)).2.2 (ix2 r 0) = lPrev (rowX m c b r) 98 := hp.2.trans (if_neg (by decide)).symm
  rw [outsAt0_C m c t h0 h1]
  dsimp only
  refine (congrFun (out0_C_3_eq (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (blk0 m c t) (blk1 m c t) (blk2 m c t) (outsAt0 m c (t.val - 1) (Nat.lt_of_le_of_lt (Nat.sub_le _ _) t.isLt)).2.1 (outsAt0 m c (t.val - 1) (Nat.lt_of_le_of_lt (Nat.sub_le _ _) t.isLt)).2.2) (ix3 0 r 0)).trans ?_
  rw [pay3_apply, pay2_eq, pay1_eq,
    max_step (grid0.coords t) (blk0 m c t) (blk1 m c t) (blk2 m c t) (outsAt0 m c (t.val - 1) (Nat.lt_of_le_of_lt (Nat.sub_le _ _) t.isLt)).2.1 r (rowX m c b r) 98 (by omega) hT hm,
    sum_step (grid0.coords t) (blk0 m c t) (blk1 m c t) (blk2 m c t) (outsAt0 m c (t.val - 1) (Nat.lt_of_le_of_lt (Nat.sub_le _ _) t.isLt)).2.1 (outsAt0 m c (t.val - 1) (Nat.lt_of_le_of_lt (Nat.sub_le _ _) t.isLt)).2.2 r (rowX m c b r) 98 (by omega) hT hm hl]
  exact final_lse (rowX m c b r)

end Cert.Lse.K

end
-- ==== Proof.OutArray.lean ====
/-
  The kernel's output array after the run, and the result the lines after the region compute from it.

  Output block b of the [2, 2048, 1] array is written back once, after the last vocabulary tile of batch element b
  (grid point b·99 + 98); the two write-backs cover the array, so the array ends holding, at (b, r, 0), what that point
  stored at row r. The lines after the region cut rows 0…2046, drop the unit axis, subtract the target logits, add up
  the 4094 entries from 0 and divide by 4094.
-/
import proofs.«430012_j79843442033222_1_alg».proof.Proof.Gen.KernelIdeal.Frame
import proofs.«430012_j79843442033222_1_alg».proof.Proof.KArgs
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.Lse.K

open Idealize.ShloMosaic Idealize.ShloMosaic.TcCoe Idealize.ShloMosaic.ValueIdx Idealize.SL.Sem Idealize.ShloMosaic.StableHlo
open Cert.KernelIdeal Cert.KernelIdeal.Gen Cert.Lse

variable (m : (ℓ : Loc nD τ sig) → Buf (Elt Ideal) ℓ)

theorem outsAt0_congr (c : Dev nD) {n n' : ℕ} (h : n < cfg0.N) (h' : n' < cfg0.N) (e : n = n') :
    outsAt0 m c n h = outsAt0 m c n' h' := by
  subst e; rfl

theorem last_lt (b : Fin 2) : b.val * 99 + 98 < cfg0.N := by
  rw [show cfg0.N = 198 from N_0]; have := b.isLt; omega

/-- What the last tile's point of batch element b stored at (0, r, z) of its output block. -/
def outAt (c : Dev nD) (b : Fin 2) (r : Fin 2048) (z : Fin 1) : EReal :=
  (outsAt0 m c (b.val * 99 + 98) (last_lt b)).1 (ix3 0 r z)

/-- The output array after the run. -/
def outArr (c : Dev nD) : Vec Ideal S2x2048x1 .f32 := fun i => outAt m c (i 0) (i 1) (i 2)

theorem outArr_apply (c : Dev nD) (b : Fin 2) (r : Fin 2048) (z : Fin 1) : outArr m c (ix3 b r z) = outAt m c b r z := rfl

/-- The output window's index map over the grid: block (t / 99, 0, 0). -/
theorem idx3 : ∀ t : Fin cfg0.N, win0_3.index t (0 : Fin 3) = t.val / 99 ∧ win0_3.index t (1 : Fin 3) = 0 ∧ win0_3.index t (2 : Fin 3) = 0 :=
  (by decide +kernel : ∀ t : Fin grid0.N, win0_3.index t (0 : Fin 3) = t.val / 99 ∧ win0_3.index t (1 : Fin 3) = 0 ∧ win0_3.index t (2 : Fin 3) = 0)

/-- What a writing-back point writes back is its block of `outArr`. -/
theorem flushed3_eq (c : Dev nD) (t : Fin cfg0.N) (hf : (cfg0.win 3).flush t = true) :
    (dats m 0 c).flushed 3 t = ((cfg0.win 3).blk t).view.read (Elt Ideal) (outArr m c) := by
  have h98 : t.val % 99 = 98 := (flush0_3 t).mp hf
  have hN : t.val < 198 := lt_of_lt_of_eq t.isLt (show cfg0.N = 198 from N_0)
  obtain ⟨e0, e1, e2⟩ := idx3 t
  show (cfg0.win 3).cut (grid0.coords t) ((dats m 0 c).after 3 t) = _
  rw [after0_3]
  funext y
  have hy0 : (y 0).val < 1 := (y 0).isLt
  have hy1 : (y 1).val < 2048 := (y 1).isLt
  have hy2 : (y 2).val < 1 := (y 2).isLt
  have hemb : ((cfg0.win 3).blk t).view.emb y
      = ix3 (⟨t.val / 99, by omega⟩ : Fin 2) (⟨(y 1).val, hy1⟩ : Fin 2048) (⟨(y 2).val, hy2⟩ : Fin 1) := by
    funext a; apply Fin.ext
    match a with
    | ⟨0, _⟩ => show win0_3.index t (0 : Fin 3) * 1 + 1 * (y 0).val = t.val / 99; omega
    | ⟨1, _⟩ => show win0_3.index t (1 : Fin 3) * 2048 + 1 * (y 1).val = (y 1).val; omega
    | ⟨2, _⟩ => show win0_3.index t (2 : Fin 3) * 1 + 1 * (y 2).val = (y 2).val; omega
  have hy : y = ix3 (0 : Fin 1) (⟨(y 1).val, hy1⟩ : Fin 2048) (⟨(y 2).val, hy2⟩ : Fin 1) := by
    funext a; apply Fin.ext
    match a with
    | ⟨0, _⟩ => show (y 0).val = 0; omega
    | ⟨1, _⟩ => rfl
    | ⟨2, _⟩ => rfl
  show (outsAt0 m c t.val t.isLt).1 y = outArr m c (((cfg0.win 3).blk t).view.emb y)
  rw [hemb]
  show (outsAt0 m c t.val t.isLt).1 y
    = (outsAt0 m c (t.val / 99 * 99 + 98) (last_lt ⟨t.val / 99, by omega⟩)).1 (ix3 (0 : Fin 1) (⟨(y 1).val, hy1⟩ : Fin 2048) (⟨(y 2).val, hy2⟩ : Fin 1))
  rw [outsAt0_congr m c (last_lt ⟨t.val / 99, by omega⟩) t.isLt (show t.val / 99 * 99 + 98 = t.val by omega)]
  exact congrArg _ hy

/-- An index of the array is in point t's block iff each coordinate is in the block's range on its axis. -/
theorem mem_blk3 (t : Fin cfg0.N) (i : S2x2048x1.Idx) :
    i ∈ ((cfg0.win 3).blk t).view.set ↔ ∀ a : Fin 3, win0_3.index t a * S1x2048x1.size a ≤ (i a).val ∧ (i a).val < win0_3.index t a * S1x2048x1.size a + S1x2048x1.size a := by
  show i ∈ ((View.whole main_v25).slice (win0_3.rect t)).set ↔ _
  rw [View.set_slice_whole, Rect.mem_set_unit]
  exact Iff.rfl

/-- Every index of the output array is in the block some writing-back point writes. -/
theorem cover3 (i : S2x2048x1.Idx) : ∃ t : Fin cfg0.N, (cfg0.win 3).flush t = true ∧ i ∈ ((cfg0.win 3).blk t).view.set := by
  have hi0 : (i 0).val < 2 := (i 0).isLt
  have hi1 : (i 1).val < 2048 := (i 1).isLt
  have hi2 : (i 2).val < 1 := (i 2).isLt
  refine ⟨⟨(i 0).val * 99 + 98, last_lt ⟨(i 0).val, hi0⟩⟩, (flush0_3 _).mpr (by show ((i 0).val * 99 + 98) % 99 = 98; omega), ?_⟩
  obtain ⟨e0, e1, e2⟩ := idx3 ⟨(i 0).val * 99 + 98, last_lt ⟨(i 0).val, hi0⟩⟩
  rw [mem_blk3]
  intro a
  match a with
  | ⟨0, _⟩ =>
    show win0_3.index ⟨(i 0).val * 99 + 98, _⟩ (0 : Fin 3) * 1 ≤ (i 0).val ∧ (i 0).val < win0_3.index ⟨(i 0).val * 99 + 98, _⟩ (0 : Fin 3) * 1 + 1
    rw [e0]; show ((i 0).val * 99 + 98) / 99 * 1 ≤ (i 0).val ∧ (i 0).val < ((i 0).val * 99 + 98) / 99 * 1 + 1; omega
  | ⟨1, _⟩ =>
    show win0_3.index ⟨(i 0).val * 99 + 98, _⟩ (1 : Fin 3) * 2048 ≤ (i 1).val ∧ (i 1).val < win0_3.index ⟨(i 0).val * 99 + 98, _⟩ (1 : Fin 3) * 2048 + 2048
    rw [e1]; omega
  | ⟨2, _⟩ =>
    show win0_3.index ⟨(i 0).val * 99 + 98, _⟩ (2 : Fin 3) * 1 ≤ (i 2).val ∧ (i 2).val < win0_3.index ⟨(i 0).val * 99 + 98, _⟩ (2 : Fin 3) * 1 + 1
    rw [e2]; omega

/-- The output array ends holding `outArr`. -/
theorem final3 (c : Dev nD) : (dats m 0 c).arrAt 3 cfg0.N = outArr m c :=
  (dats m 0 c).arrAt_eq_of_cover 3 (outArr m c) (flushed3_eq m c) cover3

/-- Rows 0…2046 of a [2, 2048, 1] array with the unit axis dropped, read at (b, s): the array at (b, s, 0). -/
theorem slice_row (A : Vec Ideal S2x2048x1 .f32) (b : Fin 2) (s : Fin 2047) :
    shapeCast S2x2047 (extractStridedSlice S2x2047x1 ![0, 0, 0] A slices_S2x2048x1_S2x2047x1_0_0_0) shapeCasts_S2x2047x1_S2x2047 (ix2 b s)
      = A (ix3 b (⟨s.val, by omega⟩ : Fin 2048) (0 : Fin 1)) := by
  refine (shapeCast_apply (extractStridedSlice S2x2047x1 ![0, 0, 0] A slices_S2x2048x1_S2x2047x1_0_0_0) shapeCasts_S2x2047x1_S2x2047
    (ix2 b s) (ix3 b s (0 : Fin 1)) ?_).trans ?_
  · rw [Shape.rowMajor_val_three, Shape.rowMajor_val_two]
    show (b.val * 2047 + s.val) * 1 + 0 = b.val * 2047 + s.val
    omega
  · exact extractStridedSlice_apply ![0, 0, 0] A slices_S2x2048x1_S2x2047x1_0_0_0 (ix3 b s (0 : Fin 1)) (ix3 b (⟨s.val, by omega⟩ : Fin 2048) (0 : Fin 1))
      (fun a => by
        match a with
        | ⟨0, _⟩ => show b.val = 0 + b.val; omega
        | ⟨1, _⟩ => show s.val = 0 + s.val; omega
        | ⟨2, _⟩ => show (0 : ℕ) = 0 + 0; rfl)

/-- The rows' losses as the kernel's program forms them: the output array at (b, s, 0) less the target logit. -/
def nllK (c : Dev nD) : FVec Ideal SN .f32 :=
  fun j => outAt m c (j 0) ⟨(j 1).val, by have h : (j 1).val < 2047 := (j 1).isLt; omega⟩ 0 - target m c j

/-- The result of the lines after the region: the mean of those losses. -/
theorem tail_eq (c : Dev nD) :
    Pipeline.afterTail₀ cfgs (dats m) 0 (V0 m) [hostOps1] c main_v30
      = meanTail reducesTo_S2x2047_S_d0_1 h_S_ (nllK m c) := by
  unfold Pipeline.afterTail₀
  show StableHlo.after hostOps1 _ (Proc.devRef .tc main_v30) = _
  after_results
  unfold meanTail
  refine congrArg (fun z => Host.divf (Host.reduceAdd z (constant (F := Ideal) S_ .f32 0x00000000#32) reducesTo_S2x2047_S_d0_1 h_S_) (constant (F := Ideal) S_ .f32 0x457FE000#32)) ?_
  have hA : Pipeline.withArrays (cfgs 0).spec c (V0 m c) (fun w => (dats m 0 c).arrAt w (cfgs 0).N) (Proc.devRef .tc main_v25) = outArr m c :=
    (Pipeline.withArrays_arr spec0 launch0.win.arr_inj c _ _ 3).trans (final3 m c)
  have hT : Pipeline.withArrays (cfgs 0).spec c (V0 m c) (fun w => (dats m 0 c).arrAt w (cfgs 0).N) (Proc.devRef .tc main_v18) = target m c :=
    Pipeline.withArrays_of_ne _ c (V0 m c) _ main_v18 (by decide)
  rw [hA, hT]
  funext j
  obtain ⟨b, s, rfl⟩ : ∃ (b : Fin 2) (s : Fin 2047), j = ix2 b s := ⟨j 0, j 1, eq_ix2 j⟩
  show shapeCast S2x2047 (extractStridedSlice S2x2047x1 ![0, 0, 0] (outArr m c) slices_S2x2048x1_S2x2047x1_0_0_0) shapeCasts_S2x2047x1_S2x2047 (ix2 b s)
      - target m c (ix2 b s)
    = outAt m c b ⟨s.val, by omega⟩ 0 - target m c (ix2 b s)
  rw [slice_row (outArr m c) b s, outArr_apply]

end Cert.Lse.K

end
-- ==== Proof.LibGatherRowsAt2.lean ====
/-
  A `stablehlo.gather` that takes whole rows of a matrix at a TWO-axis array of positions: what `x[idx]` lowers to
  when `x` has two axes and `idx` has two.  The start indices are the array as an [A × B × 1] stack of one-entry
  columns; the operand's first axis is collapsed and start-indexed, its second axis is the offset axis taken whole.
  Result row (a, b) is the operand's row at the (a, b)-th start index read as a signed integer and clamped into the
  rows that exist: a negative index reads row 0, one past the end reads the last row.
-/
import Idealize.ShloMosaic.Lib.ValueIdx

noncomputable section

namespace Cert.GatherRowsAt2

open Idealize.ShloMosaic Idealize.ShloMosaic.ValueIdx

/-- The same entry of equal lists at equal positions. -/
theorem getElem_congr {α : Type} {l l' : List α} {i i' : Nat} (hl : l = l') (hi : i = i')
    (h : i < l.length) (h' : i' < l'.length) : l[i] = l'[i'] := by
  subst hl; subst hi; rfl

/-- Rows of a matrix at a two-axis index array: `[N, C]` at `[A, B, 1]` start indices gives `[A, B, C]`; entry
    `(a, b, k)` is the operand's at (clamped start index `(a, b)`, `k`).  The hypotheses are the printed dimension
    numbers, each by `rfl`. -/
theorem gather_rows_at2 {α : Type} {N C A B w : Nat} (hN : 0 < N)
    (d : GatherDims ⟨2, ![N, C]⟩ ⟨3, ![A, B, 1]⟩ ⟨3, ![A, B, C]⟩)
    (hoff : d.offsetDims = [2]) (hcoll : d.collapsedSliceDims = [0]) (hob : d.operandBatchingDims = [])
    (hsim : d.startIndexMap = [0]) (hivd : d.indexVectorDim = 2)
    (x : (⟨2, ![N, C]⟩ : Shape).Idx → α) (idx : IVec ⟨3, ![A, B, 1]⟩ w) (a : Fin A) (b : Fin B) (k : Fin C) :
    Host.gather d x idx (ix3 a b k)
      = x (ix2 ⟨min (idx (ix3 a b (0 : Fin 1))).toInt.toNat (N - 1), by omega⟩ k) := by
  unfold Host.gather
  congr 1
  funext ax
  refine Fin.ext ?_
  have hb : ∀ a : Fin 2, a ∉ d.operandBatchingDims := fun a => by rw [hob]; exact List.not_mem_nil
  -- the result's batch axes are its first two, and they read the start indices' first two axes
  have hbd : d.batchDims = [0, 1] := by
    show (List.finRange 3).filter (· ∉ d.offsetDims) = _
    rw [hoff]; rfl
  have hsk : d.siKept = [0, 1] := by
    show (List.finRange 3).filter (·.val ≠ d.indexVectorDim) = _
    rw [hivd]; rfl
  match ax with
  | ⟨0, _⟩ =>
    -- the row axis: collapsed and start-indexed, so no offset or batching part, a slice of one row, and the start
    -- index clamped into the rows; the start index read is the entry at the result's two batch coordinates
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix3 a b k) idx 0 + d.batchCoord (ix3 a b k) 0 + d.offCoord (ix3 a b k) 0 = _
    rw [GatherDims.batchCoord_eq_zero _ _ _ (hb 0), GatherDims.offCoord_eq_zero _ _ _ hk]
    simp only [Nat.add_zero]
    unfold GatherDims.start
    rw [dif_pos hm]
    have hsi : d.siIdx (ix3 a b k) ⟨List.idxOf (0 : Fin 2) d.startIndexMap, List.idxOf_lt_length_iff.2 hm⟩
        = ix3 a b (0 : Fin 1) := by
      funext bb
      refine Fin.ext ?_
      match bb with
      | ⟨0, h0⟩ =>
        unfold GatherDims.siIdx
        rw [dif_neg (by rw [hivd]; show ¬ (0 : Nat) = 2; omega)]
        unfold GatherDims.siCoord
        simp only [Fin.val_cast]
        rw [getElem_congr hbd (show List.idxOf (⟨0, h0⟩ : Fin _) d.siKept = 0 by rw [hsk]; rfl) _ (Nat.zero_lt_succ _)]
        rfl
      | ⟨1, h1⟩ =>
        unfold GatherDims.siIdx
        rw [dif_neg (by rw [hivd]; show ¬ (1 : Nat) = 2; omega)]
        unfold GatherDims.siCoord
        simp only [Fin.val_cast]
        rw [getElem_congr hbd (show List.idxOf (⟨1, h1⟩ : Fin _) d.siKept = 1 by rw [hsk]; rfl) _ (Nat.succ_lt_succ (Nat.zero_lt_succ _))]
        rfl
      | ⟨2, _⟩ =>
        unfold GatherDims.siIdx
        rw [dif_pos (by rw [hivd])]
        show List.idxOf (0 : Fin 2) d.startIndexMap = 0
        rw [hsim]; simp
    rw [hsi, hsl]
    rfl
  | ⟨1, _⟩ =>
    -- the column axis: the offset axis taken whole, so the start is 0 and the coordinate is the result's own
    have hk : (1 : Fin 2) ∈ d.sKept := by rw [GatherDims.mem_sKept, hcoll, hob]; simp
    have hm : (1 : Fin 2) ∉ d.startIndexMap := by rw [hsim]; simp
    show d.start (ix3 a b k) idx 1 + d.batchCoord (ix3 a b k) 1 + d.offCoord (ix3 a b k) 1 = k.val
    rw [GatherDims.batchCoord_eq_zero _ _ _ (hb 1)]
    unfold GatherDims.start GatherDims.offCoord
    rw [dif_neg hm, dif_pos hk]
    simp only [Nat.add_zero, Nat.zero_add]
    have e : ∀ X : Fin 3, X ∈ d.offsetDims → ((ix3 a b k : (⟨3, ![A, B, C]⟩ : Shape).Idx) X).val = k.val := fun X hX => by
      rw [hoff] at hX
      obtain rfl := List.mem_singleton.mp hX
      rfl
    exact e _ (List.getElem_mem _)

end Cert.GatherRowsAt2

end
-- ==== Proof.HostTarget.lean ====
/-
  The target logit of a row, computed before the region: the embedding row's inner product with the weight row the
  label selects, plus that label's bias. A label in [0, 50257) is not wrapped (it is not negative) and is its own
  clamped index, so both gathers read row / entry `label`.

  The buffer the region finds is the fold of the host operations over the launch memory; it is computed once, as the
  operations' term of the four argument arrays, and that term is then read at row (b, s): the slices shift a
  coordinate, the wrap and the clamp of a label in range are the identity, each gather reads the row / entry the label
  names, and the reduction over the feature axis from the constant 0 is the sum over the 1024 features.
-/
import proofs.«430012_j79843442033222_1_alg».proof.Proof.KArgs
import proofs.«430012_j79843442033222_1_alg».proof.Proof.LibGatherRowsAt2
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Run
import Idealize.ShloMosaic.Lib.Affine

noncomputable section

open scoped BigOperators

namespace Cert.Lse.K

open Idealize.ShloMosaic Idealize.ShloMosaic.TcCoe Idealize.ShloMosaic.ValueIdx Idealize.SL.Sem Cert.KernelIdeal Cert.KernelIdeal.Gen Cert.Lse

/-! ## A label word in [0, 50257) -/

/-- A word that reads as a nonnegative integer reads the same signed and unsigned. -/
private theorem toInt_eq_toNat_of_nonneg (l : BitVec 32) (h0 : 0 ≤ l.toInt) : l.toInt = (l.toNat : Int) := by
  have hl := l.isLt
  rw [BitVec.toInt_eq_toNat_cond] at h0 ⊢
  split at h0 <;> rename_i hc
  · rw [if_pos hc]
  · exfalso; omega

/-- Such a word is not below zero: the wrap of a negative index leaves it alone. -/
private theorem slt_zero_of_nonneg (l : BitVec 32) (h0 : 0 ≤ l.toInt) : IntOp.cmpi .slt l 0#32 = 0#1 := by
  refine eq_zero_of_ne_one fun h => ?_
  have h' := IntOp.cmpi_slt.1 h
  have e0 : (0#32 : BitVec 32).toInt = 0 := by decide
  omega

/-- The wrapped index of a label in range is the label. -/
private theorem wrap_eq (l : BitVec 32) (h0 : 0 ≤ l.toInt) :
    Scalar.select (IntOp.cmpi .slt l 0#32) (IntOp.addi l 50257#32) l = l := by
  rw [slt_zero_of_nonneg l h0, select_zero]

/-- Its clamp into [0, 50256] is its value. -/
private theorem clamp_eq (l : BitVec 32) (h0 : 0 ≤ l.toInt) (h1 : l.toInt < 50257) :
    min l.toInt.toNat (50257 - 1) = l.toNat := by
  have e := toInt_eq_toNat_of_nonneg l h0
  omega

/-! ## The host's term for the target, read at a row -/

section Term

/-- The start indices both gathers read: the labels of positions 1 … 2047, a negative one wrapped round by 50257, as a
    [2, 2047, 1] stack of one-entry columns. -/
private def startIdx (L : IVec S2x2048 32) : IVec S2x2047x1 32 :=
  broadcastInDim S2x2047x1 ![0, 1] Facts₀.bcast_S2x2047_S2x2047x1_0_1
    (select
      (cmpi .slt (extractStridedSlice S2x2047 ![0, 1] L Facts₀.slices_S2x2048_S2x2047_0_1)
        (broadcastInDim S2x2047 ![] Facts₀.bcast_S_S2x2047 (constantI S_ 32 0#32)))
      (addi (extractStridedSlice S2x2047 ![0, 1] L Facts₀.slices_S2x2048_S2x2047_0_1)
        (broadcastInDim S2x2047 ![] Facts₀.bcast_S_S2x2047 (constantI S_ 32 50257#32)))
      (extractStridedSlice S2x2047 ![0, 1] L Facts₀.slices_S2x2048_S2x2047_0_1))

/-- The target logits as the program computes them before its region: per row the sum over the 1024 features of the
    embedding times the gathered weight row, from 0, plus the gathered bias. -/
private def targetTerm (E : FVec Ideal S2x2048x1024 .f32) (W : FVec Ideal S50257x1024 .f32) (Bv : FVec Ideal S50257 .f32)
    (L : IVec S2x2048 32) : FVec Ideal S2x2047 .f32 :=
  addf
    (Host.reduceAdd
      (mulf (extractStridedSlice S2x2047x1024 ![0, 0, 0] E Facts₀.slices_S2x2048x1024_S2x2047x1024_0_0_0)
        (Host.gather gather_S50257x1024_S2x2047x1_S2x2047x1024_2_0_n_n_0_2_11024 W (startIdx L)))
      (constant (F := Ideal) S_ .f32 0x00000000#32) Facts₀.reducesTo_S2x2047x1024_S2x2047_d2 Facts₀.h_S_)
    (Host.gather gather_S50257_S2x2047x1_S2x2047_n_0_n_n_0_2_1 Bv (startIdx L))

/-- The start index of row (b, s) is the label of position s + 1 when that label is not negative. -/
private theorem startIdx_apply (L : IVec S2x2048 32) (b : Fin 2) (s : Fin 2047)
    (h0 : 0 ≤ (L (ix2 b ⟨s.val + 1, by omega⟩)).toInt) :
    startIdx L (ix3 b s (0 : Fin 1)) = L (ix2 b ⟨s.val + 1, by omega⟩) := by
  unfold startIdx
  rw [broadcastInDim_apply _ _ _ _ (ix2 b s) (fun a => by
    match a with
    | ⟨0, _⟩ => rfl
    | ⟨1, _⟩ => rfl)]
  rw [select_apply]
  have hread : extractStridedSlice S2x2047 ![0, 1] L Facts₀.slices_S2x2048_S2x2047_0_1 (ix2 b s)
      = L (ix2 b ⟨s.val + 1, by omega⟩) :=
    slice2_axis1_apply 1 L _ b s ⟨s.val + 1, by omega⟩ (by show s.val + 1 = 1 + s.val; omega)
  show Scalar.select (IntOp.cmpi .slt (extractStridedSlice S2x2047 ![0, 1] L _ (ix2 b s)) 0#32)
      (IntOp.addi (extractStridedSlice S2x2047 ![0, 1] L _ (ix2 b s)) 50257#32)
      (extractStridedSlice S2x2047 ![0, 1] L _ (ix2 b s)) = _
  rw [hread]
  exact wrap_eq _ h0

private theorem targetTerm_apply (E : FVec Ideal S2x2048x1024 .f32) (W : FVec Ideal S50257x1024 .f32) (Bv : FVec Ideal S50257 .f32)
    (L : IVec S2x2048 32) (hlab : LabelsOk L) (b : Fin 2) (s : Fin 2047) (hlt : lab L b s < 50257) :
    targetTerm E W Bv L (ix2 b s)
      = (∑ k : Fin 1024, E (ix3 b ⟨s.val, by omega⟩ k) * W (ix2 ⟨lab L b s, hlt⟩ k)) + Bv (ix1 ⟨lab L b s, hlt⟩) := by
  obtain ⟨h0, h1⟩ := hlab b s
  have hidx := startIdx_apply L b s h0
  have hclamp : min (startIdx L (ix3 b s (0 : Fin 1))).toInt.toNat (50257 - 1) = lab L b s := by
    rw [hidx]; exact clamp_eq _ h0 h1
  have hB : Host.gather gather_S50257_S2x2047x1_S2x2047_n_0_n_n_0_2_1 Bv (startIdx L) (ix2 b s)
      = Bv (ix1 ⟨lab L b s, hlt⟩) := by
    have ht : takeIdx (ix2 b s) = ix3 b s (0 : Fin 1) := by
      funext a
      match a with
      | ⟨0, _⟩ => rfl
      | ⟨1, _⟩ => rfl
      | ⟨2, _⟩ => rfl
    have hg := gather_take_apply (N := 50257) (R := 2) (C := 2047) (by decide)
      Facts₀.gather_S50257_S2x2047x1_S2x2047_n_0_n_n_0_2_1_wf Bv (startIdx L) (ix2 b s)
    have hclamp' : min (startIdx L (takeIdx (ix2 b s))).toInt.toNat (50257 - 1) = lab L b s := by
      rw [ht]; exact hclamp
    exact hg.trans (congrArg (fun n : Fin 50257 => Bv (ix1 n)) (Fin.ext hclamp'))
  have hW : ∀ k : Fin 1024,
      Host.gather gather_S50257x1024_S2x2047x1_S2x2047x1024_2_0_n_n_0_2_11024 W (startIdx L) (ix3 b s k)
        = W (ix2 ⟨lab L b s, hlt⟩ k) := by
    intro k
    have hg := Cert.GatherRowsAt2.gather_rows_at2 (N := 50257) (C := 1024) (A := 2) (B := 2047) (by decide)
      gather_S50257x1024_S2x2047x1_S2x2047x1024_2_0_n_n_0_2_11024 rfl rfl rfl rfl rfl W (startIdx L) b s k
    exact hg.trans (congrArg (fun n : Fin 50257 => W (ix2 n k)) (Fin.ext hclamp))
  have hE : ∀ k : Fin 1024,
      extractStridedSlice S2x2047x1024 ![0, 0, 0] E Facts₀.slices_S2x2048x1024_S2x2047x1024_0_0_0 (ix3 b s k)
        = E (ix3 b ⟨s.val, by omega⟩ k) := fun k =>
    slice3_axis1_apply 0 E _ b s k ⟨s.val, by omega⟩ (by show s.val = 0 + s.val; omega)
  -- the reduction over the feature axis is the sum over the 1024 features, from the constant 0
  have hr : S2x2047x1024.Reduces [2] S2x2047 := by decide
  have hlift : ∀ k : Fin 1024, hr.lift (ix2 b s) k = ix3 b s k := by
    intro k
    funext a
    match a with
    | ⟨0, _⟩ => exact Fin.ext rfl
    | ⟨1, _⟩ => exact Fin.ext rfl
    | ⟨2, _⟩ => exact Fin.ext rfl
  unfold targetTerm
  rw [addf_apply, hB]
  congr 1
  show Ideal.hostReduceAdd Facts₀.reducesTo_S2x2047x1024_S2x2047_d2 _ (Ideal.ofBits .f32 0x00000000#32) (ix2 b s) = _
  rw [Ideal.hostReduceAdd_single _ hr, Ideal.ofBits_zero_f32, zero_add]
  refine Finset.sum_congr rfl fun k _ => ?_
  rw [hlift k, mulf_apply, hE k, hW k]

end Term

/-! ## The buffer the region finds -/

variable (m : (ℓ : Loc nD τ sig) → Buf (Elt Ideal) ℓ)

/-- The target buffer when the region is entered is the host operations' term of the four argument arrays. -/
private theorem target_eq (c : Dev nD) :
    (target m c : FVec Ideal S2x2047 .f32) = targetTerm (argE m c) (argW m c) (argB m c) (argL m c) := by
  dsimp only [target, Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results_simp
  rfl

theorem target_apply (c : Dev nD) (hlab : LabelsOk (argL m c)) (b : Fin 2) (s : Fin 2047) (hlt : lab (argL m c) b s < 50257) :
    target m c (ix2 b s)
      = (∑ k : Fin 1024, argE m c (ix3 b ⟨s.val, by omega⟩ k) * argW m c (ix2 ⟨lab (argL m c) b s, hlt⟩ k))
        + argB m c (ix1 ⟨lab (argL m c) b s, hlt⟩) :=
  (congrFun (target_eq m c) (ix2 b s)).trans (targetTerm_apply _ _ _ _ hlab b s hlt)

end Cert.Lse.K

end
-- ==== Proof.KernelValue.lean ====
/-
  The kernel's result is the mean of the rows' losses.

  For row (b, s) the output array holds lse of the row's logits (the carried rows after the last tile) and the target
  logit is the row's logit at its label, a real number once the arrays are; their difference is the row's loss.
-/
import proofs.«430012_j79843442033222_1_alg».proof.Proof.Invariant
import proofs.«430012_j79843442033222_1_alg».proof.Proof.OutArray
import proofs.«430012_j79843442033222_1_alg».proof.Proof.HostTarget

set_option maxRecDepth 16384

noncomputable section

open scoped BigOperators

namespace Cert.Lse.K

open Idealize.ShloMosaic Idealize.ShloMosaic.TcCoe Idealize.ShloMosaic.ValueIdx Idealize.SL.Sem
open Cert.KernelIdeal Cert.KernelIdeal.Gen Cert.Lse

variable (m : (ℓ : Loc nD τ sig) → Buf (Elt Ideal) ℓ)

/-- A label in [0, 50257) read as a natural number is below 50257. -/
theorem lab_lt {L : IVec SL 32} (hlab : LabelsOk L) (b : Fin 2) (s : Fin 2047) : lab L b s < 50257 := by
  obtain ⟨h0, h1⟩ := hlab b s
  unfold lab
  rw [BitVec.toInt_eq_toNat_cond] at h0 h1
  split at h0 <;> omega

/-- The kernel's losses are the specification's. -/
theorem nllK_eq (c : Dev nD) (hfin : Finite (argE m c) (argW m c) (argB m c)) (hlab : LabelsOk (argL m c)) :
    nllK m c = nll (argE m c) (argW m c) (argB m c) (argL m c) := by
  funext j
  obtain ⟨b, s, rfl⟩ : ∃ (b : Fin 2) (s : Fin 2047), j = ix2 b s := ⟨j 0, j 1, eq_ix2 j⟩
  have hlt : lab (argL m c) b s < 50257 := lab_lt hlab b s
  have hs : (⟨s.val, by omega⟩ : Fin 2048).val < 2047 := s.isLt
  have h1 : outAt m c b ⟨s.val, by omega⟩ 0 = ((lse (rowX m c b ⟨s.val, by omega⟩) : ℝ) : EReal) :=
    out_last m c hfin b ⟨s.val, by omega⟩ hs ⟨b.val * 99 + 98, last_lt b⟩ rfl
  have h2 : target m c (ix2 b s) = ((xr (argE m c) (argW m c) (argB m c) b ⟨s.val, by omega⟩ (lab (argL m c) b s) : ℝ) : EReal) :=
    (target_apply m c hlab b s hlt).trans (logit_coe (argE m c) (argW m c) (argB m c) hfin b ⟨s.val, by omega⟩ ⟨lab (argL m c) b s, hlt⟩)
  show outAt m c b ⟨s.val, _⟩ 0 - target m c (ix2 b s) = nllAt (argE m c) (argW m c) (argB m c) (argL m c) b s
  rw [h1, h2]
  rfl

/-- The result after the lines that follow the region. -/
theorem kernel_value (c : Dev nD) (hfin : Finite (argE m c) (argW m c) (argB m c)) (hlab : LabelsOk (argL m c)) :
    Pipeline.afterTail₀ cfgs (dats m) 0 (V0 m) [hostOps1] c main_v30
      = meanTail reducesTo_S2x2047_S_d0_1 h_S_ (nll (argE m c) (argW m c) (argB m c) (argL m c)) :=
  (tail_eq m c).trans (congrArg (meanTail reducesTo_S2x2047_S_d0_1 h_S_) (nllK_eq m c hfin hlab))

end Cert.Lse.K

end
-- ==== Proof.PreFacts.lean ====
/-
  What the precondition says of the arrays: every entry of the three float arrays is a real number (its absolute value
  is below +∞), and every label that scores a row — positions 1 to 2047 of each batch element — lies in [0, 50257).

  The precondition is a conjunction of four "for all" tests, each an and-reduction over every axis of an array of bits.
  The conjunction being 1 gives each reduction being 1, a reduction being 1 gives its bit at every index, and a bit is
  read back as the comparison it records: |x| < +∞ for an extended real x (then x is neither infinity), and the two
  signed comparisons 0 ≤ l, l < 50257 for a label l read at position s + 1 (the slice drops position 0).
-/
import proofs.«430012_j79843442033222_1_alg».proof.Pre_finite_inputs
import proofs.«430012_j79843442033222_1_alg».proof.Proof.Gen.Pre_finite_inputs
import proofs.«430012_j79843442033222_1_alg».proof.Proof.Spec
import Idealize.ShloMosaic.Lib.ReduceAll
import Idealize.ShloMosaic.Lib.ValueLayout

noncomputable section

namespace Cert.Lse.Pre

open Idealize.ShloMosaic Idealize.ShloMosaic.ValueIdx Cert.Lse

variable [Cert.Pre_finite_inputs.Facts]

/-- The shape with no axes has one index. -/
private instance subsingleton_scalar_idx : Subsingleton Cert.Pre_finite_inputs.S_.Idx :=
  ⟨fun a b => funext fun d => d.elim0⟩

/-- The pattern 0x7F800000 denotes +∞. -/
private theorem bits_top : Ideal.ofBits .f32 0x7F800000#32 = (⊤ : EReal) := by
  simp [Ideal.ofBits, Ideal.ieee]

/-- An extended real whose absolute value max x (−x) tests below +∞ is neither +∞ nor −∞. -/
private theorem ne_top_bot_of_abs_lt (x : EReal)
    (h : Ideal.cmp .olt (max x (-x)) (Ideal.ofBits .f32 0x7F800000#32) = 1#1) : x ≠ ⊤ ∧ x ≠ ⊥ := by
  rw [bits_top] at h
  have hlt : max x (-x) < ⊤ := by
    by_contra hn
    simp only [Ideal.cmp, decide_eq_false hn] at h
    exact absurd h (by decide)
  constructor
  · rintro rfl
    simp at hlt
  · rintro rfl
    simp at hlt

/-- One "all entries are finite" test read back: if the and-reduction over every axis of the bits |X i| < +∞ is 1,
    every entry of X is a real number. -/
private theorem finite_of_all {s : Shape} {axes : List (Fin s.rank)} (X : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
        (cmpf .olt (Host.absf X) (broadcastInDim s ![] hb (constant (F := Ideal) Cert.Pre_finite_inputs.S_ .f32 0x7F800000#32)))
        (constantI Cert.Pre_finite_inputs.S_ 1 1#1) hr hu ix0 = 1#1) (i : s.Idx) : X i ≠ ⊤ ∧ X i ≠ ⊥ :=
  ne_top_bot_of_abs_lt (X i) (Host.reduce_andi_all _ _ hr hu ix0 e i)

theorem finite_of_pre (E : FVec Ideal SE .f32) (W : FVec Ideal SW .f32) (Bv : FVec Ideal SB .f32) (L : IVec SL 32)
    (h : Cert.Pre_finite_inputs.fn (F := Ideal) E W Bv L = fun _ => 1#1) : Finite E W Bv := by
  have h0 := congrFun h ix0
  dsimp only [Cert.Pre_finite_inputs.fn, Cert.Pre_finite_inputs.fn_part1] at h0
  obtain ⟨h13, -⟩ := IntOp.andi_eq_one.1 h0
  obtain ⟨h8, h12⟩ := IntOp.andi_eq_one.1 h13
  obtain ⟨h3, h7⟩ := IntOp.andi_eq_one.1 h8
  exact ⟨finite_of_all E _ _ _ h3, finite_of_all W _ _ _ h7, finite_of_all Bv _ _ _ h12⟩

theorem labels_of_pre (E : FVec Ideal SE .f32) (W : FVec Ideal SW .f32) (Bv : FVec Ideal SB .f32) (L : IVec SL 32)
    (h : Cert.Pre_finite_inputs.fn (F := Ideal) E W Bv L = fun _ => 1#1) : LabelsOk L := by
  have h0 := congrFun h ix0
  dsimp only [Cert.Pre_finite_inputs.fn, Cert.Pre_finite_inputs.fn_part1] at h0
  obtain ⟨-, h21⟩ := IntOp.andi_eq_one.1 h0
  intro b s
  -- the bit of row (b, s): both comparisons of the label at position s + 1
  have hbit := Host.reduce_andi_all _ _ _ _ ix0 h21 (ix2 b s)
  obtain ⟨hge, hlt⟩ := IntOp.andi_eq_one.1 hbit
  have hge' := IntOp.cmpi_sge.1 hge
  have hlt' := IntOp.cmpi_slt.1 hlt
  -- the slice reads the labels at (b, 1 + s)
  have hread := slice2_axis1_apply 1 L Cert.Pre_finite_inputs.Facts.slices_S2x2048_S2x2047_0_1 b s
    ⟨s.val + 1, by omega⟩ (by show s.val + 1 = 1 + s.val; omega)
  rw [hread] at hge' hlt'
  -- the two literals read signed
  have e0 : (0#32 : BitVec 32).toInt = 0 := by decide
  have e1 : (50257#32 : BitVec 32).toInt = 50257 := by decide
  exact ⟨le_of_eq_of_le e0.symm hge', lt_of_lt_of_eq hlt' e1⟩

end Cert.Lse.Pre

end
-- ==== Proof.lean ====
/-
  A fused cross-entropy: the kernel computes, per batch element, a tile-by-tile (online) logsumexp of the 50257 logits
  of every position over 99 vocabulary tiles of 512 columns, and the surrounding program subtracts the gathered target
  logit and averages; the reference materialises the logits, applies log_softmax, takes the entry at the label, negates
  and averages. Over the extended reals, with real inputs and labels in [0, 50257), both are the mean over the 2·2047
  scored positions of lse(x) − x[label]:

  * the kernel's two carried rows after tile v hold the maximum of the logits seen so far and the sum of
    exp(logit − maximum) over them (induction over the tiles; the padding columns of the last tile are −∞ and add
    exp(−∞) = 0), so after tile 98 the stored row is max + log sum = lse(x) (Invariant, Online);
  * the reference's −((x[t] − M) − log Σ exp(x − M)) is lse(x) − x[t] on real numbers (Online, RefValue);
  * a label in range is its own gather index on both sides (HostTarget, RefValue).

  The named mask fill −∞ is the one entry of the idealisation's ledger (`preserves`); the three frames are the generated
  frame runs.
-/
import proofs.«430012_j79843442033222_1_alg».proof.Defs
import proofs.«430012_j79843442033222_1_alg».proof.Proof.Gen.Kernel
import proofs.«430012_j79843442033222_1_alg».proof.Proof.Gen.Kernel.Frame
import proofs.«430012_j79843442033222_1_alg».proof.Proof.Gen.KernelIdeal
import proofs.«430012_j79843442033222_1_alg».proof.Proof.Gen.KernelIdeal.Frame
import proofs.«430012_j79843442033222_1_alg».proof.Proof.Gen.ReferenceIdeal
import proofs.«430012_j79843442033222_1_alg».proof.Proof.Gen.Pre_finite_inputs
import proofs.«430012_j79843442033222_1_alg».proof.Proof.RefRun
import proofs.«430012_j79843442033222_1_alg».proof.Proof.RefRead
import proofs.«430012_j79843442033222_1_alg».proof.Proof.RefValue
import proofs.«430012_j79843442033222_1_alg».proof.Proof.KernelValue
import proofs.«430012_j79843442033222_1_alg».proof.Proof.PreFacts
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ledger's one entry: the table gives the mask fill the value −∞, and the printed constant is that value at the
    exact instance. -/
theorem preserves : Cert.preserves_Kernel_KernelIdeal :=
  IdealRules.named_const.statement Cert.KernelIdeal.κ "neg_big" .f32 0xF149F2CA#32 ⊥ rfl

/-- Both programs end at the mean of the rows' losses of the (agreeing) argument arrays. -/
theorem algebraic : Cert.algebraic_KernelIdeal_ReferenceIdeal := by
  intro m ρ m' ρ' hpre hagree
  have hfin : ∀ c, Cert.Lse.Finite (Cert.Lse.K.argE m c) (Cert.Lse.K.argW m c) (Cert.Lse.K.argB m c) :=
    fun c => Cert.Lse.Pre.finite_of_pre _ _ _ _ (hpre c)
  have hlab : ∀ c, Cert.Lse.LabelsOk (Cert.Lse.K.argL m c) :=
    fun c => Cert.Lse.Pre.labels_of_pre _ _ _ _ (hpre c)
  refine ⟨fun c => Cert.Lse.meanTail Cert.KernelIdeal.Facts₀.reducesTo_S2x2047_S_d0_1 Cert.KernelIdeal.Facts₀.h_S_
      (Cert.Lse.nll (Cert.Lse.K.argE m c) (Cert.Lse.K.argW m c) (Cert.Lse.K.argB m c) (Cert.Lse.K.argL m c)), ?_, ?_⟩
  · exact (θ_run Cert.KernelIdeal.defs _ _).mono (fun r h c =>
      ⟨((h c).2 Cert.KernelIdeal.main_v30 (Pipeline.mem_restRefs_of Cert.KernelIdeal.main_v30 (by decide) (by decide))).trans
          (Cert.Lse.K.kernel_value m c (hfin c) (hlab c)),
        ((h c).2 Cert.KernelIdeal.main_arg0 (Pipeline.mem_restRefs_of Cert.KernelIdeal.main_arg0 (by decide) (by decide))).trans
          (Cert.KernelIdeal.Gen.W_main_arg0 m (Cert.KernelIdeal.Gen.dats m) c),
        ((h c).2 Cert.KernelIdeal.main_arg1 (Pipeline.mem_restRefs_of Cert.KernelIdeal.main_arg1 (by decide) (by decide))).trans
          (Cert.KernelIdeal.Gen.W_main_arg1 m (Cert.KernelIdeal.Gen.dats m) c),
        ((h c).2 Cert.KernelIdeal.main_arg2 (Pipeline.mem_restRefs_of Cert.KernelIdeal.main_arg2 (by decide) (by decide))).trans
          (Cert.KernelIdeal.Gen.W_main_arg2 m (Cert.KernelIdeal.Gen.dats m) c),
        ((h c).2 Cert.KernelIdeal.main_arg3 (Pipeline.mem_restRefs_of Cert.KernelIdeal.main_arg3 (by decide) (by decide))).trans
          (Cert.KernelIdeal.Gen.W_main_arg3 m (Cert.KernelIdeal.Gen.dats m) c)⟩)
      (Cert.KernelIdeal.Gen.run_main (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v12_eq, (hagree c).1, (hagree c).2.1, (hagree c).2.2.1, (hagree c).2.2.2]
    exact Cert.Lse.Ref.val_eq _ _ _ _ (hfin c) (hlab c)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
